-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128x1 : Shape := ⟨3, ![4096, 128, 1]⟩
abbrev S64x1 : Shape := ⟨2, ![64, 1]⟩
abbrev S64x64 : Shape := ⟨2, ![64, 64]⟩
abbrev S1x128 : Shape := ⟨2, ![1, 128]⟩
abbrev S_ : Shape := ⟨0, ![]⟩

class Facts : Prop where
  bcast_S_S4096x128x1 : S_.BroadcastsInDim S4096x128x1 (![] : Fin 0 → Fin S4096x128x1.rank)
  reducesTo_S4096x128x1_S_d0_1_2 : S4096x128x1.ReducesTo [0, 1, 2] S_
  h_S_ : 0 < S_.numel
  bcast_S_S64x1 : S_.BroadcastsInDim S64x1 (![] : Fin 0 → Fin S64x1.rank)
  reducesTo_S64x1_S_d0_1 : S64x1.ReducesTo [0, 1] S_
  bcast_S_S64x64 : S_.BroadcastsInDim S64x64 (![] : Fin 0 → Fin S64x64.rank)
  reducesTo_S64x64_S_d0_1 : S64x64.ReducesTo [0, 1] S_
  bcast_S_S1x128 : S_.BroadcastsInDim S1x128 (![] : Fin 0 → Fin S1x128.rank)
  reducesTo_S1x128_S_d0_1 : S1x128.ReducesTo [0, 1] S_

variable [Facts]

def fn_part2 {F : FTy → Type} [FloatOps F] (main_arg7 : FVec F S64x64 .f32) (main_arg8 : FVec F S64x64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  main_v43

def fn_part1 {F : FTy → Type} [FloatOps F] (main_arg4 : FVec F S64x64 .f32) (main_arg5 : FVec F S64x1 .f32) (main_arg6 : FVec F S1x128 .f32) (main_arg7 : FVec F S64x64 .f32) (main_arg8 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg7 main_arg8 main_v33

def fn {F : FTy → Type} [FloatOps F] (main_arg0 : FVec F S4096x128x1 .f32) (main_arg1 : FVec F S4096x128x1 .f32) (main_arg2 : FVec F S64x1 .f32) (main_arg3 : FVec F S64x64 .f32) (main_arg4 : FVec F S64x64 .f32) (main_arg5 : FVec F S64x1 .f32) (main_arg6 : FVec F S1x128 .f32) (main_arg7 : FVec F S64x64 .f32) (main_arg8 : FVec F S64x64 .f32) : IVec S_ 1 :=
  let main_v0 : FVec F S4096x128x1 .f32 := Host.absf main_arg0
  let main_cst : FVec F S_ .f32 := constant S_ .f32 0x7F800000#32
  let main_v1 : FVec F S4096x128x1 .f32 := broadcastInDim S4096x128x1 ![] bcast_S_S4096x128x1 main_cst
  let main_v2 : IVec S4096x128x1 1 := cmpf .olt main_v0 main_v1
  let main_c : IVec S_ 1 := constantI S_ 1 1#1
  let main_v3 : IVec S_ 1 := (fun x v => Host.reduce IntOp.andi x v reducesTo_S4096x128x1_S_d0_1_2 h_S_) main_v2 main_c
  let main_v4 : FVec F S4096x128x1 .f32 := Host.absf main_arg1
  let main_cst_0 : FVec F S_ .f32 := constant S_ .f32 0x7F800000#32
  let main_v5 : FVec F S4096x128x1 .f32 := broadcastInDim S4096x128x1 ![] bcast_S_S4096x128x1 main_cst_0
  let main_v6 : IVec S4096x128x1 1 := cmpf .olt main_v4 main_v5
  let main_c_1 : IVec S_ 1 := constantI S_ 1 1#1
  let main_v7 : IVec S_ 1 := (fun x v => Host.reduce IntOp.andi x v reducesTo_S4096x128x1_S_d0_1_2 h_S_) main_v6 main_c_1
  let main_v8 : IVec S_ 1 := andi main_v3 main_v7
  let main_v9 : FVec F S64x1 .f32 := Host.absf main_arg2
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S4096x128x1 : Shape := ⟨3, ![4096, 128, 1]⟩
abbrev S64x1 : Shape := ⟨2, ![64, 1]⟩
abbrev S64x64 : Shape := ⟨2, ![64, 64]⟩
abbrev S1x128 : Shape := ⟨2, ![1, 128]⟩
abbrev S1x64 : Shape := ⟨2, ![1, 64]⟩
abbrev S32x128x1 : Shape := ⟨3, ![32, 128, 1]⟩
abbrev S64 : Shape := ⟨1, ![64]⟩
abbrev S1x1x64 : Shape := ⟨3, ![1, 1, 64]⟩
abbrev S32x128x64 : Shape := ⟨3, ![32, 128, 64]⟩
abbrev S32x64 : Shape := ⟨2, ![32, 64]⟩
abbrev S32x1x64 : Shape := ⟨3, ![32, 1, 64]⟩
abbrev S4096x64 : Shape := ⟨2, ![4096, 64]⟩
abbrev S32x1 : Shape := ⟨2, ![32, 1]⟩
abbrev S4096x1 : Shape := ⟨2, ![4096, 1]⟩
abbrev S32x1x1 : Shape := ⟨3, ![32, 1, 1]⟩

abbrev nBuf : Space → Nat
  | .hbm => 18
  | .vmem => 14
  | .smem => 0
  | _ => 0

abbrev bufTy : (tb : Table) → Fin (tcTables nBuf tb) → BufTy
  | .hbm, ⟨0, _⟩ => ⟨S4096x128x1, .f32⟩
  | .hbm, ⟨1, _⟩ => ⟨S4096x128x1, .f32⟩
  | .hbm, ⟨2, _⟩ => ⟨S64x1, .f32⟩
  | .hbm, ⟨3, _⟩ => ⟨S64x64, .f32⟩
  | .hbm, ⟨4, _⟩ => ⟨S64x64, .f32⟩
  | .hbm, ⟨5, _⟩ => ⟨S64x1, .f32⟩
  | .hbm, ⟨6, _⟩ => ⟨S1x128, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S1x64, .f32⟩
  | .hbm, ⟨14, _⟩ => ⟨S1x64, .f32⟩
  | .hbm, ⟨15, _⟩ => ⟨S64x1, .f32⟩
  | .hbm, ⟨16, _⟩ => ⟨S64x1, .f32⟩
  | .hbm, ⟨17, _⟩ => ⟨S4096x128x1, .f32⟩
  | .local _ .vmem, ⟨0, _⟩ => ⟨S32x128x1, .f32⟩
  | .local _ .vmem, ⟨1, _⟩ => ⟨S32x128x1, .f32⟩
  | .local _ .vmem, ⟨2, _⟩ => ⟨S32x128x1, .f32⟩
  | .local _ .vmem, ⟨3, _⟩ => ⟨S32x128x1, .f32⟩
  | .local _ .vmem, ⟨4, _⟩ => ⟨S64x1, .f32⟩
  | .local _ .vmem, ⟨5, _⟩ => ⟨S64x1, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S64x64, .f32⟩
  | .local _ .vmem, ⟨10, _⟩ => ⟨S64x1, .f32⟩
  | .local _ .vmem, ⟨11, _⟩ => ⟨S64x1, .f32⟩
  | .local _ .vmem, ⟨12, _⟩ => ⟨S32x128x1, .f32⟩
  | .local _ .vmem, ⟨13, _⟩ => ⟨S32x128x1, .f32⟩
  | _, _ => ⟨S4096x128x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S32x128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S64x64_S64x64_1_0 : S64x64.Transposes [1, 0] S64x64
  slices_S1x128_S1x64_0_0 : S1x128.Slices ![0, 0] S1x64
  slices_S1x128_S1x64_0_64 : S1x128.Slices ![0, 64] S1x64
  transposes_S1x64_S64x1_1_0 : S1x64.Transposes [1, 0] S64x1
  inb_S32x128x1_S32x128x1_0_0_0 : ∀ a, (![0, 0, 0] : Fin 3 → Nat) a + S32x128x1.size a ≤ S32x128x1.size a
  h_S32x128x1 : 0 < S32x128x1.numel
  inb_S64x1_S64x1_0_0 : ∀ a, (![0, 0] : Fin 2 → Nat) a + S64x1.size a ≤ S64x1.size a
  h_S64x1 : 0 < S64x1.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  shapeCasts_S64x1_S64x1 : S64x1.ShapeCasts S64x1
  shapeCasts_S64x1_S64 : S64x1.ShapeCasts S64
  shapeCasts_S64_S1x1x64 : S64.ShapeCasts S1x1x64
  broadcasts_S32x128x1_S32x128x64 : S32x128x1.Broadcasts S32x128x64
  broadcasts_S1x1x64_S32x128x64 : S1x1x64.Broadcasts S32x128x64
  reduces_S32x128x64_S32x64 : S32x128x64.Reduces [1] S32x64
  shapeCasts_S32x64_S32x1x64 : S32x64.ShapeCasts S32x1x64
  broadcasts_S32x1x64_S32x128x64 : S32x1x64.Broadcasts S32x128x64
  shapeCasts_S32x128x64_S4096x64 : S32x128x64.ShapeCasts S4096x64
  shapeCasts_S4096x64_S32x128x64 : S4096x64.ShapeCasts S32x128x64
  shapeCasts_S4096x1_S32x128x1 : S4096x1.ShapeCasts S32x128x1
  shapeCasts_S32x1_S32x1x1 : S32x1.ShapeCasts S32x1x1
  broadcasts_S32x1x1_S32x128x1 : S32x1x1.Broadcasts S32x128x1
  dot_S4096x64_S64x64_S4096x64_1_0_0_1_n_n_wf : DotDims.WF S4096x64 S64x64 S4096x64 [1] [0] [0] [1] [] []
  dot_S32x64_S64x64_S32x64_1_0_0_1_n_n_wf : DotDims.WF S32x64 S64x64 S32x64 [1] [0] [0] [1] [] []
  dot_S32x64_S64x1_S32x1_1_0_0_1_n_n_wf : DotDims.WF S32x64 S64x1 S32x1 [1] [0] [0] [1] [] []
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x1.size a ≤ S4096x128x1.size a
  hwx0_0 : ∀ i : grid0.Coords, EltTy.bits .f32 = 32 ∨ (Rect.block (s := S4096x128x1) S32x128x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x1.size a ≤ S4096x128x1.size a
  hwx0_1 : ∀ i : grid0.Coords, EltTy.bits .f32 = 32 ∨ (Rect.block (s := S4096x128x1) S32x128x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S64x1.size a
  hwx0_8 : ∀ i : grid0.Coords, EltTy.bits .f32 = 32 ∨ (Rect.block (s := S64x1) S64x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x1.size a ≤ S64x1.size a
  hwx0_9 : ∀ i : grid0.Coords, EltTy.bits .f32 = 32 ∨ (Rect.block (s := S64x1) S64x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S32x128x1.size a ≤ S4096x128x1.size a
  hwx0_10 : ∀ i : grid0.Coords, EltTy.bits .f32 = 32 ∨ (Rect.block (s := S4096x128x1) S32x128x1.size (cc0_transform_10 i) (hinb0_10 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S32x64_S64x64_S32x64_1_0_0_1_n_n : DotDims S32x64 S64x64 S32x64 where
  lhsContracting := [1]
  rhsContracting := [0]
  lhsNonContracting := [0]
  rhsNonContracting := [1]
  lhsBatch := []
  rhsBatch := []
  wf := dot_S32x64_S64x64_S32x64_1_0_0_1_n_n_wf
def dot_S32x64_S64x1_S32x1_1_0_0_1_n_n : DotDims S32x64 S64x1 S32x1 where
  lhsContracting := [1]
  rhsContracting := [0]
  lhsNonContracting := [0]
  rhsNonContracting := [1]
  lhsBatch := []
  rhsBatch := []
  wf := dot_S32x64_S64x1_S32x1_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_arg0) S32x128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S64x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S32x128x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x128x1 : Shape := ⟨3, ![4096, 128, 1]⟩
abbrev S64x1 : Shape := ⟨2, ![64, 1]⟩
abbrev S64x64 : Shape := ⟨2, ![64, 64]⟩
abbrev S1x128 : Shape := ⟨2, ![1, 128]⟩
abbrev S4096x128x64 : Shape := ⟨3, ![4096, 128, 64]⟩
abbrev S_ : Shape := ⟨0, ![]⟩
abbrev S4096x64 : Shape := ⟨2, ![4096, 64]⟩
abbrev S4096x1x64 : Shape := ⟨3, ![4096, 1, 64]⟩
abbrev S1x64 : Shape := ⟨2, ![1, 64]⟩
abbrev S4096x1 : Shape := ⟨2, ![4096, 1]⟩
abbrev S4096x1x1 : Shape := ⟨3, ![4096, 1, 1]⟩

abbrev nBuf : Space → Nat
  | .hbm => 89
  | .vmem => 0
  | .smem => 0
  | _ => 0

abbrev bufTy : (tb : Table) → Fin (tcTables nBuf tb) → BufTy
  | .hbm, ⟨0, _⟩ => ⟨S4096x128x1, .f32⟩
  | .hbm, ⟨1, _⟩ => ⟨S4096x128x1, .f32⟩
  | .hbm, ⟨2, _⟩ => ⟨S64x1, .f32⟩
  | .hbm, ⟨3, _⟩ => ⟨S64x64, .f32⟩
  | .hbm, ⟨4, _⟩ => ⟨S64x64, .f32⟩
  | .hbm, ⟨5, _⟩ => ⟨S64x1, .f32⟩
  | .hbm, ⟨6, _⟩ => ⟨S1x128, .f32⟩
  | .hbm, ⟨7, _⟩ => ⟨S64x64, .f32⟩
  | .hbm, ⟨8, _⟩ => ⟨S64x64, .f32⟩
  | .hbm, ⟨9, _⟩ => ⟨S4096x128x64, .f32⟩
  | .hbm, ⟨10, _⟩ => ⟨S_, .f32⟩
  | .hbm, ⟨11, _⟩ => ⟨S4096x128x64, .f32⟩
  | .hbm, ⟨12, _⟩ => ⟨S4096x128x64, .f32⟩
  | .hbm, ⟨13, _⟩ => ⟨S_, .f32⟩
  | .hbm, ⟨14, _⟩ => ⟨S4096x64, .f32⟩
  | .hbm, ⟨15, _⟩ => ⟨S4096x1x64, .f32⟩
  | .hbm, ⟨16, _⟩ => ⟨S4096x128x64, .f32⟩
  | .hbm, ⟨17, _⟩ => ⟨S_, .f32⟩
  | .hbm, ⟨18, _⟩ => ⟨S4096x128x64, .f32⟩
  | .hbm, ⟨19, _⟩ => ⟨S_, .f32⟩
  | .hbm, ⟨20, _⟩ => ⟨S4096x64, .f32⟩
  | .hbm, ⟨21, _⟩ => ⟨S4096x1x64, .f32⟩
  | .hbm, ⟨22, _⟩ => ⟨S4096x128x64, .f32⟩
  | .hbm, ⟨23, _⟩ => ⟨S4096x128x64, .f32⟩
  | .hbm, ⟨24, _⟩ => ⟨S4096x128x64, .f32⟩
  | .hbm, ⟨25, _⟩ => ⟨S4096x128x64, .f32⟩
  | .hbm, ⟨26, _⟩ => ⟨S4096x128x64, .f32⟩
  | .hbm, ⟨27, _⟩ => ⟨S4096x128x64, .f32⟩
  | .hbm, ⟨28, _⟩ => ⟨S4096x128x64, .f32⟩
  | .hbm, ⟨29, _⟩ => ⟨S4096x128x64, .f32⟩
  | .hbm, ⟨30, _⟩ => ⟨S_, .f32⟩
  | .hbm, ⟨31, _⟩ => ⟨S4096x128x64, .f32⟩
  | .hbm, ⟨32, _⟩ => ⟨S4096x128x64, .f32⟩
  | .hbm, ⟨33, _⟩ => ⟨S_, .f32⟩
  | .hbm, ⟨34, _⟩ => ⟨S4096x64, .f32⟩
  | .hbm, ⟨35, _⟩ => ⟨S4096x1x64, .f32⟩
  | .hbm, ⟨36, _⟩ => ⟨S4096x128x64, .f32⟩
  | .hbm, ⟨37, _⟩ => ⟨S4096x128x64, .f32⟩
  | .hbm, ⟨38, _⟩ => ⟨S4096x128x64, .f32⟩
  | .hbm, ⟨39, _⟩ => ⟨S4096x128x64, .f32⟩
  | .hbm, ⟨40, _⟩ => ⟨S4096x128x64, .f32⟩
  | .hbm, ⟨41, _⟩ => ⟨S4096x128x64, .f32⟩
  | .hbm, ⟨42, _⟩ => ⟨S4096x128x64, .f32⟩
  | .hbm, ⟨43, _⟩ => ⟨S4096x128x64, .f32⟩
  | .hbm, ⟨44, _⟩ => ⟨S_, .f32⟩
  | .hbm, ⟨45, _⟩ => ⟨S4096x128x64, .f32⟩
  | .hbm, ⟨46, _⟩ => ⟨S4096x128x64, .f32⟩
  | .hbm, ⟨47, _⟩ => ⟨S_, .f32⟩
  | .hbm, ⟨48, _⟩ => ⟨S4096x64, .f32⟩
  | .hbm, ⟨49, _⟩ => ⟨S4096x1x64, .f32⟩
  | .hbm, ⟨50, _⟩ => ⟨S4096x128x64, .f32⟩
  | .hbm, ⟨51, _⟩ => ⟨S4096x128x64, .f32⟩
  | .hbm, ⟨52, _⟩ => ⟨S4096x128x64, .f32⟩
  | .hbm, ⟨53, _⟩ => ⟨S4096x128x64, .f32⟩
  | .hbm, ⟨54, _⟩ => ⟨S4096x128x64, .f32⟩
  | .hbm, ⟨55, _⟩ => ⟨S4096x128x64, .f32⟩
  | .hbm, ⟨56, _⟩ => ⟨S4096x128x64, .f32⟩
  | .hbm, ⟨57, _⟩ => ⟨S4096x128x64, .f32⟩
  | .hbm, ⟨58, _⟩ => ⟨S_, .f32⟩
  | .hbm, ⟨59, _⟩ => ⟨S4096x128x64, .f32⟩
  | .hbm, ⟨60, _⟩ => ⟨S4096x128x64, .f32⟩
  | .hbm, ⟨61, _⟩ => ⟨S_, .f32⟩
  | .hbm, ⟨62, _⟩ => ⟨S4096x64, .f32⟩
  | .hbm, ⟨63, _⟩ => ⟨S4096x1x64, .f32⟩
  | .hbm, ⟨64, _⟩ => ⟨S4096x128x64, .f32⟩
  | .hbm, ⟨65, _⟩ => ⟨S4096x128x64, .f32⟩
  | .hbm, ⟨66, _⟩ => ⟨S4096x128x64, .f32⟩
  | .hbm, ⟨67, _⟩ => ⟨S4096x128x64, .f32⟩
  | .hbm, ⟨68, _⟩ => ⟨S4096x128x64, .f32⟩
  | .hbm, ⟨69, _⟩ => ⟨S4096x128x64, .f32⟩
  | .hbm, ⟨70, _⟩ => ⟨S4096x128x64, .f32⟩
  | .hbm, ⟨71, _⟩ => ⟨S4096x128x64, .f32⟩
  | .hbm, ⟨72, _⟩ => ⟨S_, .f32⟩
  | .hbm, ⟨73, _⟩ => ⟨S4096x128x64, .f32⟩
  | .hbm, ⟨74, _⟩ => ⟨S4096x128x64, .f32⟩
  | .hbm, ⟨75, _⟩ => ⟨S_, .f32⟩
  | .hbm, ⟨76, _⟩ => ⟨S4096x64, .f32⟩
  | .hbm, ⟨77, _⟩ => ⟨S4096x64, .f32⟩
  | .hbm, ⟨78, _⟩ => ⟨S_, .f32⟩
  | .hbm, ⟨79, _⟩ => ⟨S4096x64, .f32⟩
  | .hbm, ⟨80, _⟩ => ⟨S4096x64, .f32⟩
  | .hbm, ⟨81, _⟩ => ⟨S4096x128x64, .f32⟩
  | .hbm, ⟨82, _⟩ => ⟨S1x64, .f32⟩
  | .hbm, ⟨83, _⟩ => ⟨S1x64, .f32⟩
  | .hbm, ⟨84, _⟩ => ⟨S4096x1, .f32⟩
  | .hbm, ⟨85, _⟩ => ⟨S4096x1x1, .f32⟩
  | .hbm, ⟨86, _⟩ => ⟨S4096x128x1, .f32⟩
  | .hbm, ⟨87, _⟩ => ⟨S4096x128x1, .f32⟩
  | .hbm, ⟨88, _⟩ => ⟨S4096x128x1, .f32⟩
  | _, _ => ⟨S4096x128x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_cst : Ref sig .tc := ⟨.hbm, 10, rfl⟩
abbrev main_call0_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call1_cst : Ref sig .tc := ⟨.hbm, 30, rfl⟩
abbrev main_call1_v0 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call2_cst : Ref sig .tc := ⟨.hbm, 44, rfl⟩
abbrev main_call2_v0 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call3_cst : Ref sig .tc := ⟨.hbm, 58, rfl⟩
abbrev main_call3_v0 : Ref sig .tc := ⟨.hbm, 59, rfl⟩
abbrev main_v38 : Ref sig .tc := ⟨.hbm, 60, rfl⟩
abbrev main_cst_4 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call4_cst : Ref sig .tc := ⟨.hbm, 72, rfl⟩
abbrev main_call4_v0 : Ref sig .tc := ⟨.hbm, 73, rfl⟩
abbrev main_v49 : Ref sig .tc := ⟨.hbm, 74, rfl⟩
abbrev main_cst_5 : Ref sig .tc := ⟨.hbm, 75, rfl⟩
abbrev main_v50 : Ref sig .tc := ⟨.hbm, 76, rfl⟩
abbrev main_v51 : Ref sig .tc := ⟨.hbm, 77, rfl⟩
abbrev main_call5_cst : Ref sig .tc := ⟨.hbm, 78, rfl⟩
abbrev main_call5_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩

abbrev nD : Nat := 1
abbrev τ : Topo := Topo.v7x

variable {F : FTy → Type} [FloatOps F]

class Facts₀ : Prop where
  bcast_S_S4096x128x64 : S_.BroadcastsInDim S4096x128x64 (![] : Fin 0 → Fin S4096x128x64.rank)
  reducesTo_S4096x128x64_S4096x64_d1 : S4096x128x64.ReducesTo [1] S4096x64
  h_S_ : 0 < S_.numel
  bcast_S4096x64_S4096x1x64_0_2 : S4096x64.BroadcastsInDim S4096x1x64 (![0, 2] : Fin 2 → Fin S4096x1x64.rank)
  bcast_S4096x1x64_S4096x128x64_0_1_2 : S4096x1x64.BroadcastsInDim S4096x128x64 (![0, 1, 2] : Fin 3 → Fin S4096x128x64.rank)
  bcast_S_S4096x64 : S_.BroadcastsInDim S4096x64 (![] : Fin 0 → Fin S4096x64.rank)
  slices_S1x128_S1x64_0_0 : S1x128.Slices ![0, 0] S1x64
  slices_S1x128_S1x64_0_64 : S1x128.Slices ![0, 64] S1x64
  bcast_S4096x1_S4096x1x1_0_2 : S4096x1.BroadcastsInDim S4096x1x1 (![0, 2] : Fin 2 → Fin S4096x1x1.rank)
  bcast_S4096x1x1_S4096x128x1_0_1_2 : S4096x1x1.BroadcastsInDim S4096x128x1 (![0, 1, 2] : Fin 3 → Fin S4096x128x1.rank)
  dot_S4096x128x1_S64x1_S4096x128x64_2_1_01_0_n_n_wf : DotDims.WF S4096x128x1 S64x1 S4096x128x64 [2] [1] [0, 1] [0] [] []
  dot_S4096x128x64_S64x64_S4096x128x64_2_1_01_0_n_n_wf : DotDims.WF S4096x128x64 S64x64 S4096x128x64 [2] [1] [0, 1] [0] [] []
  dot_S4096x64_S64x64_S4096x64_1_1_0_0_n_n_wf : DotDims.WF S4096x64 S64x64 S4096x64 [1] [1] [0] [0] [] []
  dot_S4096x64_S1x64_S4096x1_1_1_0_0_n_n_wf : DotDims.WF S4096x64 S1x64 S4096x1 [1] [1] [0] [0] [] []
  dot_S4096x128x64_S1x64_S4096x128x1_2_1_01_0_n_n_wf : DotDims.WF S4096x128x64 S1x64 S4096x128x1 [2] [1] [0, 1] [0] [] []

variable [Facts₀]

def dot_S4096x128x1_S64x1_S4096x128x64_2_1_01_0_n_n : DotDims S4096x128x1 S64x1 S4096x128x64 where
  lhsContracting := [2]
  rhsContracting := [1]
  lhsNonContracting := [0, 1]
  rhsNonContracting := [0]
  lhsBatch := []
  rhsBatch := []
  wf := dot_S4096x128x1_S64x1_S4096x128x64_2_1_01_0_n_n_wf
def dot_S4096x128x64_S64x64_S4096x128x64_2_1_01_0_n_n : DotDims S4096x128x64 S64x64 S4096x128x64 where
  lhsContracting := [2]
  rhsContracting := [1]
  lhsNonContracting := [0, 1]
  rhsNonContracting := [0]
  lhsBatch := []
  rhsBatch := []
  wf := dot_S4096x128x64_S64x64_S4096x128x64_2_1_01_0_n_n_wf
def dot_S4096x64_S64x64_S4096x64_1_1_0_0_n_n : DotDims S4096x64 S64x64 S4096x64 where
  lhsContracting := [1]
  rhsContracting := [1]
  lhsNonContracting := [0]
  rhsNonContracting := [0]
  lhsBatch := []
  rhsBatch := []
  wf := dot_S4096x64_S64x64_S4096x64_1_1_0_0_n_n_wf
def dot_S4096x64_S1x64_S4096x1_1_1_0_0_n_n : DotDims S4096x64 S1x64 S4096x1 where
  lhsContracting := [1]
  rhsContracting := [1]
  lhsNonContracting := [0]
  rhsNonContracting := [0]
  lhsBatch := []
  rhsBatch := []
  wf := dot_S4096x64_S1x64_S4096x1_1_1_0_0_n_n_wf
def dot_S4096x128x64_S1x64_S4096x128x1_2_1_01_0_n_n : DotDims S4096x128x64 S1x64 S4096x128x1 where
  lhsContracting := [2]
  rhsContracting := [1]
  lhsNonContracting := [0, 1]
  rhsNonContracting := [0]
  lhsBatch := []
  rhsBatch := []
  wf := dot_S4096x128x64_S1x64_S4096x128x1_2_1_01_0_n_n_wf

class Facts : Prop extends Facts₀ where

variable [Facts]
-- ==== Proof.Spec.lean ====
/-
  The function both programs compute, for ONE batch element, on plain index types.

  A batch element has 128 nodes; node k carries a scalar feature x k and a scalar weight w k.  With 64 channels:
    xm k p = x k * W1 p                      (the node's own message)
    tm k p = max (w k * W4 p) 0              (the edge message)
    one round:  mu' k q = max ((xm k q + sum_p (sum_k' mu k' p - mu k p) * W2 q p)
                                        + sum_p (sum_k' tm k' p - tm k p) * W3 q p) 0
  four rounds from mu = 0 give the embedding; the readout of node k is
    sum_p max (sum_p' (sum_k' mu k' p') * W6 p p') 0 * W5a p  +  sum_p (sum_p' mu k p' * W7 p p') * W5b p.
  Everything is over the extended reals; no step below uses more than the shape of these formulas.
-/
import Idealize.ShloMosaic.Lib.ValueIdx
import Idealize.ShloMosaic.PureOps.Ideal.Laws

noncomputable section

open scoped BigOperators

namespace Cert.Gnn

open Idealize.ShloMosaic Idealize.ShloMosaic.ValueIdx

/-- One batch element's node features: 128 nodes by 64 channels. -/
abbrev Feat := Fin 128 → Fin 64 → EReal

/-- A weight matrix, indexed (output channel, input channel). -/
abbrev Mat := Fin 64 → Fin 64 → EReal

/-- A rank-one feature: node scalar times channel weight. -/
def outer (x : Fin 128 → EReal) (W : Fin 64 → EReal) : Feat := fun k p => x k * W p

/-- The positive part, entry by entry. -/
def relu (f : Feat) : Feat := fun k p => max (f k p) 0

/-- The sum over the nodes, per channel. -/
def colsum (f : Feat) : Fin 64 → EReal := fun p => ∑ k, f k p

/-- One round of message passing. -/
def step (xm tm : Feat) (W2 W3 : Mat) (mu : Feat) : Feat := fun k q =>
  max ((xm k q + ∑ p, (colsum mu p - mu k p) * W2 q p) + ∑ p, (colsum tm p - tm k p) * W3 q p) 0

/-- Four rounds from the zero embedding. -/
def embed (xm tm : Feat) (W2 W3 : Mat) : Feat :=
  step xm tm W2 W3 (step xm tm W2 W3 (step xm tm W2 W3 (step xm tm W2 W3 (fun _ _ => 0))))

/-- The pooled head: the positive part of the summed embedding through W6. -/
def pooled (W6 : Mat) (mu : Feat) : Fin 64 → EReal := fun q => max (∑ p, colsum mu p * W6 q p) 0

/-- The local head: each node's embedding through W7. -/
def loc (W7 : Mat) (mu : Feat) : Feat := fun k q => ∑ p, mu k p * W7 q p

/-- The readout of node k. -/
def readout (W5a W5b : Fin 64 → EReal) (W6 W7 : Mat) (mu : Feat) : Fin 128 → EReal := fun k =>
  (∑ p, pooled W6 mu p * W5a p) + ∑ p, loc W7 mu k p * W5b p

/-- The whole function of one batch element. -/
def q (x w : Fin 128 → EReal) (W1 W4 : Fin 64 → EReal) (W2 W3 W6 W7 : Mat) (W5a W5b : Fin 64 → EReal) : Fin 128 → EReal :=
  readout W5a W5b W6 W7 (embed (outer x W1) (relu (outer w W4)) W2 W3)

/-- The function over arrays of n batch elements, the square weights given TRANSPOSED (input channel first) and the
    two halves of the readout weight as columns: what a block of the kernel computes from its operands. -/
def ofTransposed {n : Nat} (x w : (⟨3, ![n, 128, 1]⟩ : Shape).Idx → EReal) (W1 W4 : (⟨2, ![64, 1]⟩ : Shape).Idx → EReal)
    (W2t W3t W6t W7t : (⟨2, ![64, 64]⟩ : Shape).Idx → EReal) (W5at W5bt : (⟨2, ![64, 1]⟩ : Shape).Idx → EReal) :
    (⟨3, ![n, 128, 1]⟩ : Shape).Idx → EReal := fun i =>
  q (fun k => x (ix3 (i 0) k 0)) (fun k => w (ix3 (i 0) k 0)) (fun p => W1 (ix2 p 0)) (fun p => W4 (ix2 p 0))
    (fun a c => W2t (ix2 c a)) (fun a c => W3t (ix2 c a)) (fun a c => W6t (ix2 c a)) (fun a c => W7t (ix2 c a))
    (fun p => W5at (ix2 p 0)) (fun p => W5bt (ix2 p 0)) (i 1)

/-- The function over arrays of n batch elements with the weights as the programs' arguments give them: square weights
    (output channel, input channel), the readout weight one row of 128, its first half for the pooled head and its
    second for the local head. -/
def ofArgs {n : Nat} (x w : (⟨3, ![n, 128, 1]⟩ : Shape).Idx → EReal) (W1 : (⟨2, ![64, 1]⟩ : Shape).Idx → EReal)
    (W2 W3 : (⟨2, ![64, 64]⟩ : Shape).Idx → EReal) (W4 : (⟨2, ![64, 1]⟩ : Shape).Idx → EReal)
    (W5 : (⟨2, ![1, 128]⟩ : Shape).Idx → EReal) (W6 W7 : (⟨2, ![64, 64]⟩ : Shape).Idx → EReal) :
    (⟨3, ![n, 128, 1]⟩ : Shape).Idx → EReal := fun i =>
  q (fun k => x (ix3 (i 0) k 0)) (fun k => w (ix3 (i 0) k 0)) (fun p => W1 (ix2 p 0)) (fun p => W4 (ix2 p 0))
    (fun a c => W2 (ix2 a c)) (fun a c => W3 (ix2 a c)) (fun a c => W6 (ix2 a c)) (fun a c => W7 (ix2 a c))
    (fun p => W5 (ix2 0 ⟨p.val, by have := p.isLt; omega⟩)) (fun p => W5 (ix2 0 ⟨64 + p.val, by have := p.isLt; omega⟩)) (i 1)

end Cert.Gnn

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.KernelOps.lean ====
/-
  The operations one round of message passing is made of, as the kernel body spells them on a block of 32 batch
  elements, and each of them read at an index at the ideal values.

  A block of features is an array [32, 128, 64].  The body flattens it to [4096, 64] (row 128 b + k is node k of batch
  element b) for every matrix product and folds it back afterwards.
-/
import proofs.«179231_j29755533427211_1_alg».proof.Proof.Gen.KernelIdeal.Skeleton
import proofs.«179231_j29755533427211_1_alg».proof.Proof.Spec
import proofs.«179231_j29755533427211_1_alg».proof.Proof.LibDot
import Idealize.ShloMosaic.Lib.Pipeline.Value
import Idealize.ShloMosaic.Lib.ValueLayout

noncomputable section

open scoped BigOperators

namespace Cert.KernelIdeal.Ops

open Cert.KernelIdeal Cert.KernelIdeal.Gen
open Idealize.ShloMosaic Idealize.ShloMosaic.TcCoe Idealize.ShloMosaic.ValueIdx
open Cert.Gnn (Feat Mat outer relu colsum step pooled loc readout)

section Defs
variable {F : FTy → Type} [FloatOps F]

/-- The all-zero feature block the first round starts from, and the zero every positive part is taken against. -/
def zeroBlk : FVec F S32x128x64 .f32 := broadcast S32x128x64 (Scalar.ofBits .f32 0x00000000#32)

/-- Per batch element and channel, the sum over the nodes, with the node axis kept as a unit axis. -/
def nodeSum (v : FVec F S32x128x64 .f32) : FVec F S32x1x64 .f32 :=
  shapeCast S32x1x64 (multiReduction .add [1] S32x64 v 0x00000000#32 reduces_S32x128x64_S32x64 (.inl rfl) rfl) shapeCasts_S32x64_S32x1x64

/-- "The others' total": a per-element sum (unit node axis) spread over the nodes, minus the block, flattened. -/
def others (s : FVec F S32x1x64 .f32) (v : FVec F S32x128x64 .f32) : FVec F S4096x64 .f32 :=
  shapeCast S4096x64 (subf (broadcastTo S32x128x64 s broadcasts_S32x1x64_S32x128x64) v) shapeCasts_S32x128x64_S4096x64

/-- A flattened block through a 64 by 64 weight (given input channel first), folded back to [32, 128, 64]. -/
def through (W : FVec F S64x64 .bf16) (d : FVec F S4096x64 .f32) : FVec F S32x128x64 .f32 :=
  shapeCast S32x128x64 (matmul dot_S4096x64_S64x64_S4096x64_1_0_0_1_n_n none (truncf .bf16 d bitsLt_bf16_f32) W
    (constant S4096x64 .f32 0x00000000#32)) shapeCasts_S4096x64_S32x128x64

/-- One round: the positive part of the node's own message plus the two neighbour terms. -/
def round (W2t W3t : FVec F S64x64 .bf16) (xm tm : FVec F S32x128x64 .f32) (st : FVec F S32x1x64 .f32)
    (mu : FVec F S32x128x64 .f32) : FVec F S32x128x64 .f32 :=
  maximumf (addf (addf xm (through W2t (others (nodeSum mu) mu))) (through W3t (others st tm))) zeroBlk

end Defs

/-- A block of features agrees, batch element by batch element, with a family of the specification's features. -/
def Rep (v : FVec Ideal S32x128x64 .f32) (f : Fin 32 → Feat) : Prop := ∀ (b : Fin 32) (k : Fin 128) (p : Fin 64), v (ix3 b k p) = f b k p

/-- Row 128 b + k of the flattened block. -/
abbrev flat (b : Fin 32) (k : Fin 128) : Fin 4096 := ⟨128 * b.val + k.val, by have := b.isLt; have := k.isLt; omega⟩

/-! ## Index bookkeeping shared by the lemmas below -/

/-- A block [32, 128, c] flattened to [4096, c] reads row 128 b + k at (b, k). -/
theorem flat64_apply {α : Type} (v : S32x128x64.Idx → α) (b : Fin 32) (k : Fin 128) (p : Fin 64) :
    shapeCast S4096x64 v shapeCasts_S32x128x64_S4096x64 (ix2 (flat b k) p) = v (ix3 b k p) := by
  refine shapeCast_apply v shapeCasts_S32x128x64_S4096x64 (ix2 (flat b k) p) (ix3 b k p) ?_
  rw [Shape.rowMajor_val_three, Shape.rowMajor_val_two]
  show (b.val * 128 + k.val) * 64 + p.val = (128 * b.val + k.val) * 64 + p.val
  omega

/-- A flattened block [4096, 64] folded back reads (b, k) at row 128 b + k. -/
theorem fold64_apply {α : Type} (u : S4096x64.Idx → α) (b : Fin 32) (k : Fin 128) (p : Fin 64) :
    shapeCast S32x128x64 u shapeCasts_S4096x64_S32x128x64 (ix3 b k p) = u (ix2 (flat b k) p) := by
  refine shapeCast_apply u shapeCasts_S4096x64_S32x128x64 (ix3 b k p) (ix2 (flat b k) p) ?_
  rw [Shape.rowMajor_val_three, Shape.rowMajor_val_two]
  show (128 * b.val + k.val) * 64 + p.val = (b.val * 128 + k.val) * 64 + p.val
  omega

/-- The sum over the node axis, entry (b, p): the sum over the nodes k of the block at (b, k, p). -/
theorem sumNodes_apply (v : FVec Ideal S32x128x64 .f32) (b : Fin 32) (p : Fin 64) :
    multiReduction .add [1] S32x64 v 0x00000000#32 reduces_S32x128x64_S32x64 (.inl rfl) rfl (ix2 b p) = ∑ k : Fin 128, v (ix3 b k p) := by
  refine (Ideal.multiReduction_add_single v _ reduces_S32x128x64_S32x64 _ _ (ix2 b p)).trans ?_
  show ∑ k : Fin 128, v (reduces_S32x128x64_S32x64.lift (ix2 b p) k) = ∑ k : Fin 128, v (ix3 b k p)
  refine Finset.sum_congr rfl fun k _ => congrArg v ?_
  funext a
  apply Fin.ext
  match a with
  | ⟨0, _⟩ => rfl
  | ⟨1, _⟩ => rfl
  | ⟨2, _⟩ => rfl

/-- A per-element row (unit node axis) spread over the nodes reads the row at every node. -/
theorem spread64_apply {α : Type} (s : S32x1x64.Idx → α) (b : Fin 32) (k : Fin 128) (p : Fin 64) :
    broadcastTo S32x128x64 s broadcasts_S32x1x64_S32x128x64 (ix3 b k p) = s (ix3 b 0 p) :=
  broadcastTo_apply s broadcasts_S32x1x64_S32x128x64 (ix3 b k p) (ix3 b 0 p) (fun a => match a with
    | ⟨0, _⟩ => by show b.val = if (32 : Nat) = 1 then 0 else b.val; rw [if_neg (by decide)]
    | ⟨1, _⟩ => by show 0 = if (1 : Nat) = 1 then 0 else k.val; rw [if_pos rfl]
    | ⟨2, _⟩ => by show p.val = if (64 : Nat) = 1 then 0 else p.val; rw [if_neg (by decide)])

/-! ## The weights as loaded: a change of format only -/

theorem pay1_eq (v : Vec Ideal S64x64 .f32) : k0_pay1 (F := Ideal) v = v := by
  unfold k0_pay1
  exact shapeCast_self v shapeCasts_S64x64_S64x64
theorem pay2_eq (v : Vec Ideal S64x64 .f32) : k0_pay2 (F := Ideal) v = v := by
  unfold k0_pay2
  exact shapeCast_self v shapeCasts_S64x64_S64x64
theorem pay3_eq (v : Vec Ideal S64x64 .f32) : k0_pay3 (F := Ideal) v = v := by
  unfold k0_pay3
  exact shapeCast_self v shapeCasts_S64x64_S64x64
theorem pay4_eq (v : Vec Ideal S64x64 .f32) : k0_pay4 (F := Ideal) v = v := by
  unfold k0_pay4
  exact shapeCast_self v shapeCasts_S64x64_S64x64
theorem pay5_eq (v : Vec Ideal S64x1 .f32) : k0_pay5 (F := Ideal) v = v := by
  unfold k0_pay5
  exact shapeCast_self v shapeCasts_S64x1_S64x1
theorem pay6_eq (v : Vec Ideal S64x1 .f32) : k0_pay6 (F := Ideal) v = v := by
  unfold k0_pay6
  exact shapeCast_self v shapeCasts_S64x1_S64x1

/-! ## The two messages and the edge message's node sum -/

/-- A node scalar [32, 128, 1] spread over the channels reads the scalar at every channel. -/
theorem spreadNode_apply {α : Type} (x : S32x128x1.Idx → α) (b : Fin 32) (k : Fin 128) (p : Fin 64) :
    broadcastTo S32x128x64 x broadcasts_S32x128x1_S32x128x64 (ix3 b k p) = x (ix3 b k 0) :=
  broadcastTo_apply x broadcasts_S32x128x1_S32x128x64 (ix3 b k p) (ix3 b k 0) (fun a => match a with
    | ⟨0, _⟩ => by show b.val = if (32 : Nat) = 1 then 0 else b.val; rw [if_neg (by decide)]
    | ⟨1, _⟩ => by show k.val = if (128 : Nat) = 1 then 0 else k.val; rw [if_neg (by decide)]
    | ⟨2, _⟩ => by show 0 = if (1 : Nat) = 1 then 0 else p.val; rw [if_pos rfl])

/-- A weight column [64, 1] taken as a row [1, 1, 64] and spread over elements and nodes reads the column's entry p. -/
theorem spreadWeight_apply {α : Type} (w : S64x1.Idx → α) (b : Fin 32) (k : Fin 128) (p : Fin 64) :
    broadcastTo S32x128x64 (shapeCast S1x1x64 (shapeCast S64 w shapeCasts_S64x1_S64) shapeCasts_S64_S1x1x64)
      broadcasts_S1x1x64_S32x128x64 (ix3 b k p) = w (ix2 p 0) := by
  refine (broadcastTo_apply _ broadcasts_S1x1x64_S32x128x64 (ix3 b k p) (ix3 0 0 p) (fun a => match a with
    | ⟨0, _⟩ => by show 0 = if (1 : Nat) = 1 then 0 else b.val; rw [if_pos rfl]
    | ⟨1, _⟩ => by show 0 = if (1 : Nat) = 1 then 0 else k.val; rw [if_pos rfl]
    | ⟨2, _⟩ => by show p.val = if (64 : Nat) = 1 then 0 else p.val; rw [if_neg (by decide)])).trans ?_
  refine (shapeCast_apply _ shapeCasts_S64_S1x1x64 (ix3 0 0 p) (ix1 p) ?_).trans ?_
  · rw [Shape.rowMajor_val_one, Shape.rowMajor_val_three]
    show p.val = (0 * 1 + 0) * 64 + p.val
    omega
  · refine shapeCast_apply w shapeCasts_S64x1_S64 (ix1 p) (ix2 p 0) ?_
    rw [Shape.rowMajor_val_one, Shape.rowMajor_val_two]
    show p.val * 1 + 0 = p.val
    omega

theorem xm_rep (x0 : Vec Ideal S32x128x1 .f32) (x2 : Vec Ideal S64x1 .f32) :
    Rep (k0_pay7 (F := Ideal) x0 x2) (fun b => outer (fun k => x0 (ix3 b k 0)) (fun p => x2 (ix2 p 0))) := by
  intro b k p
  unfold k0_pay7
  show mulf (F := Ideal) (broadcastTo S32x128x64 x0 broadcasts_S32x128x1_S32x128x64)
      (broadcastTo S32x128x64 (shapeCast S1x1x64 (shapeCast S64 x2 shapeCasts_S64x1_S64) shapeCasts_S64_S1x1x64)
        broadcasts_S1x1x64_S32x128x64) (ix3 b k p) = x0 (ix3 b k 0) * x2 (ix2 p 0)
  rw [mulf_apply, spreadNode_apply, spreadWeight_apply]

theorem tm_rep (x1 : Vec Ideal S32x128x1 .f32) (x3 : Vec Ideal S64x1 .f32) :
    Rep (k0_pay8 (F := Ideal) x1 x3) (fun b => relu (outer (fun k => x1 (ix3 b k 0)) (fun p => x3 (ix2 p 0)))) := by
  intro b k p
  unfold k0_pay8
  show maximumf (F := Ideal) (mulf (F := Ideal) (broadcastTo S32x128x64 x1 broadcasts_S32x128x1_S32x128x64)
      (broadcastTo S32x128x64 (shapeCast S1x1x64 (shapeCast S64 x3 shapeCasts_S64x1_S64) shapeCasts_S64_S1x1x64)
        broadcasts_S1x1x64_S32x128x64)) (broadcast S32x128x64 (Ideal.ofBits .f32 0x00000000#32)) (ix3 b k p)
    = max (x1 (ix3 b k 0) * x3 (ix2 p 0)) 0
  rw [maximumf_apply, mulf_apply, spreadNode_apply, spreadWeight_apply, broadcast_apply, Ideal.ofBits_zero_f32]

theorem nodeSum_apply (v : FVec Ideal S32x128x64 .f32) (b : Fin 32) (p : Fin 64) :
    nodeSum (F := Ideal) v (ix3 b 0 p) = ∑ k : Fin 128, v (ix3 b k p) := by
  unfold nodeSum
  refine (shapeCast_apply _ shapeCasts_S32x64_S32x1x64 (ix3 b 0 p) (ix2 b p) ?_).trans (sumNodes_apply v b p)
  rw [Shape.rowMajor_val_two, Shape.rowMajor_val_three]
  show b.val * 64 + p.val = (b.val * 1 + 0) * 64 + p.val
  omega

/-- The edge message's node sum, as the body keeps it (pay10 of pay9), is `nodeSum` of the edge message. -/
theorem st_eq (x1 : Vec Ideal S32x128x1 .f32) (x3 : Vec Ideal S64x1 .f32) :
    k0_pay10 (F := Ideal) (k0_pay9 (F := Ideal) x1 x3) = nodeSum (F := Ideal) (k0_pay8 (F := Ideal) x1 x3) := rfl

/-! ## The pieces of a round at an index -/

theorem others_apply (s : FVec Ideal S32x1x64 .f32) (v : FVec Ideal S32x128x64 .f32) (b : Fin 32) (k : Fin 128) (p : Fin 64) :
    others (F := Ideal) s v (ix2 (flat b k) p) = s (ix3 b 0 p) - v (ix3 b k p) := by
  unfold others
  rw [flat64_apply, subf_apply, spread64_apply]

theorem through_apply (W : FVec Ideal S64x64 .bf16) (d : FVec Ideal S4096x64 .f32) (b : Fin 32) (k : Fin 128) (q : Fin 64) :
    through (F := Ideal) W d (ix3 b k q) = ∑ c : Fin 64, d (ix2 (flat b k) c) * W (ix2 c q) := by
  unfold through
  rw [fold64_apply]
  exact Cert.LibDot.matmul_10_zero_apply dot_S4096x64_S64x64_S4096x64_1_0_0_1_n_n rfl rfl rfl rfl rfl rfl none
    (truncf .bf16 d bitsLt_bf16_f32) W (flat b k) q

theorem zeroBlk_apply (i : S32x128x64.Idx) : zeroBlk (F := Ideal) i = 0 := by
  unfold zeroBlk
  rw [broadcast_apply]
  exact Ideal.ofBits_zero_f32

theorem zero_rep : Rep (zeroBlk (F := Ideal)) (fun _ _ _ => 0) := fun _ _ _ => zeroBlk_apply _

/-- One round of the body is one round of the specification, batch element by batch element. -/
theorem round_rep (W2t W3t : FVec Ideal S64x64 .bf16) (xm tm : FVec Ideal S32x128x64 .f32) (mu : FVec Ideal S32x128x64 .f32)
    (XM TM M : Fin 32 → Feat) (hx : Rep xm XM) (ht : Rep tm TM) (hm : Rep mu M) :
    Rep (round (F := Ideal) W2t W3t xm tm (nodeSum tm) mu)
      (fun b => step (XM b) (TM b) (fun a c => W2t (ix2 c a)) (fun a c => W3t (ix2 c a)) (M b)) := by
  intro b k q
  have hx' : ∀ (b : Fin 32) (k : Fin 128) (p : Fin 64), xm (ix3 b k p) = XM b k p := hx
  have ht' : ∀ (b : Fin 32) (k : Fin 128) (p : Fin 64), tm (ix3 b k p) = TM b k p := ht
  have hm' : ∀ (b : Fin 32) (k : Fin 128) (p : Fin 64), mu (ix3 b k p) = M b k p := hm
  unfold round
  rw [maximumf_apply, addf_apply, addf_apply, through_apply, through_apply, zeroBlk_apply]
  simp only [others_apply, nodeSum_apply, hx', ht', hm']
  rfl

/-! ## Folding a [4096, 1] column back to [32, 128, 1], and a [32, 1] column spread over the nodes -/

theorem fold_col_apply (u : FVec Ideal S4096x1 .f32) (b : Fin 32) (k : Fin 128) :
    shapeCast S32x128x1 u shapeCasts_S4096x1_S32x128x1 (ix3 b k 0) = u (ix2 (flat b k) 0) := by
  refine shapeCast_apply u shapeCasts_S4096x1_S32x128x1 (ix3 b k 0) (ix2 (flat b k) 0) ?_
  rw [Shape.rowMajor_val_three, Shape.rowMajor_val_two]
  show (128 * b.val + k.val) * 1 + 0 = (b.val * 128 + k.val) * 1 + 0
  omega

theorem spread_col_apply (u : FVec Ideal S32x1 .f32) (b : Fin 32) (k : Fin 128) :
    broadcastTo S32x128x1 (shapeCast S32x1x1 u shapeCasts_S32x1_S32x1x1) broadcasts_S32x1x1_S32x128x1 (ix3 b k 0) = u (ix2 b 0) := by
  refine (broadcastTo_apply _ broadcasts_S32x1x1_S32x128x1 (ix3 b k 0) (ix3 b 0 0) (fun a => match a with
    | ⟨0, _⟩ => by show b.val = if (32 : Nat) = 1 then 0 else b.val; rw [if_neg (by decide)]
    | ⟨1, _⟩ => by show 0 = if (1 : Nat) = 1 then 0 else k.val; rw [if_pos rfl]
    | ⟨2, _⟩ => by show 0 = if (1 : Nat) = 1 then 0 else 0; rw [if_pos rfl])).trans ?_
  refine shapeCast_apply u shapeCasts_S32x1_S32x1x1 (ix3 b 0 0) (ix2 b 0) ?_
  rw [Shape.rowMajor_val_three, Shape.rowMajor_val_two]
  show b.val * 1 + 0 = (b.val * 1 + 0) * 1 + 0
  omega

theorem flatten_apply (v : FVec Ideal S32x128x64 .f32) (b : Fin 32) (k : Fin 128) (p : Fin 64) :
    shapeCast S4096x64 v shapeCasts_S32x128x64_S4096x64 (ix2 (flat b k) p) = v (ix3 b k p) := flat64_apply v b k p

theorem sum32_apply (v : FVec Ideal S32x128x64 .f32) (b : Fin 32) (p : Fin 64) :
    multiReduction .add [1] S32x64 v 0x00000000#32 reduces_S32x128x64_S32x64 (.inl rfl) rfl (ix2 b p) = ∑ k : Fin 128, v (ix3 b k p) :=
  sumNodes_apply v b p

end Cert.KernelIdeal.Ops

end
-- ==== Proof.KernelBody.lean ====
/-
  What one grid point's body leaves in the output block is the specification's function of the ten operand blocks.

  The body is four unrolled rounds of message passing on a block of 32 batch elements followed by the readout.  Each
  round of the body is one round of the specification batch element by batch element, and the readout of the body at
  node k of batch element b is the specification's readout of that element's embedding at k.
-/
import proofs.«179231_j29755533427211_1_alg».proof.Proof.Gen.KernelIdeal.Frame
import proofs.«179231_j29755533427211_1_alg».proof.Proof.Spec
import proofs.«179231_j29755533427211_1_alg».proof.Proof.LibDot
import proofs.«179231_j29755533427211_1_alg».proof.Proof.KernelOps

noncomputable section

open scoped BigOperators

namespace Cert.KernelIdeal.Body

open Cert.KernelIdeal Cert.KernelIdeal.Gen Cert.KernelIdeal.Ops
open Idealize.ShloMosaic Idealize.ShloMosaic.TcCoe Idealize.ShloMosaic.ValueIdx
open Cert.Gnn (Feat Mat outer relu colsum step embed pooled loc readout)

section Defs
variable {F : FTy → Type} [FloatOps F]

/-- The pooled head on a block: per batch element, the positive part of the node-summed embedding through a 64 by 64
    weight (given input channel first). -/
def poolBlk (W6t : FVec F S64x64 .bf16) (mu : FVec F S32x128x64 .f32) : FVec F S32x64 .f32 :=
  maximumf
    (matmul dot_S32x64_S64x64_S32x64_1_0_0_1_n_n none
      (truncf .bf16 (multiReduction .add [1] S32x64 mu 0x00000000#32 reduces_S32x128x64_S32x64 (.inl rfl) rfl) bitsLt_bf16_f32)
      W6t (constant S32x64 .f32 0x00000000#32))
    (broadcast S32x64 (Scalar.ofBits .f32 0x00000000#32))

/-- The local head on a block: every node's embedding (the block flattened) through a 64 by 64 weight. -/
def locBlk (W7t : FVec F S64x64 .bf16) (mu : FVec F S32x128x64 .f32) : FVec F S4096x64 .f32 :=
  matmul dot_S4096x64_S64x64_S4096x64_1_0_0_1_n_n none
    (truncf .bf16 (shapeCast S4096x64 mu shapeCasts_S32x128x64_S4096x64) bitsLt_bf16_f32) W7t (constant S4096x64 .f32 0x00000000#32)

/-- A per-element feature against a column of readout weights. -/
def poolCol (W5a : FVec F S64x1 .bf16) (g : FVec F S32x64 .f32) : FVec F S32x1 .f32 :=
  matmul dot_S32x64_S64x1_S32x1_1_0_0_1_n_n none (truncf .bf16 g bitsLt_bf16_f32) W5a (constant S32x1 .f32 0x00000000#32)

/-- A per-node feature (flattened) against a column of readout weights. -/
def locCol (W5b : FVec F S64x1 .bf16) (l : FVec F S4096x64 .f32) : FVec F S4096x1 .f32 :=
  matmul dot_S4096x64_S64x1_S4096x1_1_0_0_1_n_n none (truncf .bf16 l bitsLt_bf16_f32) W5b (constant S4096x1 .f32 0x00000000#32)

/-- The readout of a block of embeddings: the pooled head's scalar of each batch element spread over its nodes, plus
    the local head's scalar of each node. -/
def tail (W6t W7t : FVec F S64x64 .bf16) (W5a W5b : FVec F S64x1 .bf16) (mu : FVec F S32x128x64 .f32) : FVec F S32x128x1 .f32 :=
  addf
    (broadcastTo S32x128x1 (shapeCast S32x1x1 (poolCol W5a (poolBlk W6t mu)) shapeCasts_S32x1_S32x1x1) broadcasts_S32x1x1_S32x128x1)
    (shapeCast S32x128x1 (locCol W5b (locBlk W7t mu)) shapeCasts_S4096x1_S32x128x1)

/-! ## The body's payloads as rounds and a readout (by unfolding only) -/

theorem pay11_eq (v33 : FVec F S32x128x64 .f32) (v34 : FVec F S32x64 .f32) :
    k0_pay11 v33 v34 = others (k0_pay10 v34) v33 := rfl

/-- The payload carried into the last part: two full rounds from zero, and the first neighbour term of the third. -/
theorem pay12_eq (v6 v9 : FVec F S64x64 .bf16) (v26 v33 : FVec F S32x128x64 .f32) (v34 : FVec F S32x64 .f32) :
    k0_pay12 v6 v9 v26 v33 v34
      = through v6 (others (nodeSum (round v6 v9 v26 v33 (k0_pay10 v34) (round v6 v9 v26 v33 (k0_pay10 v34) zeroBlk)))
          (round v6 v9 v26 v33 (k0_pay10 v34) (round v6 v9 v26 v33 (k0_pay10 v34) zeroBlk))) := rfl

/-- The last part: the third round finished from its two given terms, the fourth round, and the readout. -/
theorem pay13_eq (v6 v9 v12 v15 : FVec F S64x64 .bf16) (v18 v21 : FVec F S64x1 .bf16) (v26 v33 : FVec F S32x128x64 .f32)
    (v35 : FVec F S32x1x64 .f32) (v80 : FVec F S4096x64 .f32) (v83 : FVec F S32x128x64 .f32) :
    k0_pay13 v6 v9 v12 v15 v18 v21 v26 v33 v35 v80 v83
      = tail v12 v15 v18 v21 (round v6 v9 v26 v33 v35 (maximumf (addf (addf v26 v83) (through v9 v80)) zeroBlk)) := rfl

/-- With the two given terms those of a round, the third round is a round. -/
theorem round_of_terms (v6 v9 : FVec F S64x64 .bf16) (v26 v33 : FVec F S32x128x64 .f32) (v35 : FVec F S32x1x64 .f32)
    (mu : FVec F S32x128x64 .f32) :
    maximumf (addf (addf v26 (through v6 (others (nodeSum mu) mu))) (through v9 (others v35 v33))) zeroBlk
      = round v6 v9 v26 v33 v35 mu := rfl

/-- The whole body over its payloads: four rounds from zero, then the readout. -/
theorem body_eq (v6 v9 v12 v15 : FVec F S64x64 .bf16) (v18 v21 : FVec F S64x1 .bf16) (v26 v33 : FVec F S32x128x64 .f32)
    (v34 : FVec F S32x64 .f32) :
    k0_pay13 v6 v9 v12 v15 v18 v21 v26 v33 (k0_pay10 v34) (k0_pay11 v33 v34) (k0_pay12 v6 v9 v26 v33 v34)
      = tail v12 v15 v18 v21
          (round v6 v9 v26 v33 (k0_pay10 v34) (round v6 v9 v26 v33 (k0_pay10 v34)
            (round v6 v9 v26 v33 (k0_pay10 v34) (round v6 v9 v26 v33 (k0_pay10 v34) zeroBlk)))) := by
  rw [pay13_eq, pay11_eq, pay12_eq, round_of_terms]

end Defs

/-! ## The readout at an index -/

/-- The zero the positive part is taken against. -/
theorem zero_f32 : (FloatOps.ofBits FTy.f32 0x00000000#32 : Ideal .f32) = 0 := Ideal.ofBits_zero_f32

theorem poolBlk_apply (W6t : FVec Ideal S64x64 .bf16) (mu : FVec Ideal S32x128x64 .f32) (b : Fin 32) (q : Fin 64) :
    poolBlk (F := Ideal) W6t mu (ix2 b q) = max (∑ c : Fin 64, (∑ k : Fin 128, mu (ix3 b k c)) * W6t (ix2 c q)) 0 := by
  unfold poolBlk
  rw [maximumf_apply, broadcast_apply, Cert.LibDot.matmul_10_zero_apply _ rfl rfl rfl rfl rfl rfl]
  refine congrArg₂ max (Finset.sum_congr rfl fun c _ => ?_) zero_f32
  rw [truncf_apply, sum32_apply]

theorem locBlk_apply (W7t : FVec Ideal S64x64 .bf16) (mu : FVec Ideal S32x128x64 .f32) (b : Fin 32) (k : Fin 128) (q : Fin 64) :
    locBlk (F := Ideal) W7t mu (ix2 (flat b k) q) = ∑ c : Fin 64, mu (ix3 b k c) * W7t (ix2 c q) := by
  unfold locBlk
  rw [Cert.LibDot.matmul_10_zero_apply _ rfl rfl rfl rfl rfl rfl]
  refine Finset.sum_congr rfl fun c _ => ?_
  rw [truncf_apply, flatten_apply]

theorem poolCol_apply (W5a : FVec Ideal S64x1 .bf16) (g : FVec Ideal S32x64 .f32) (b : Fin 32) :
    poolCol (F := Ideal) W5a g (ix2 b 0) = ∑ c : Fin 64, g (ix2 b c) * W5a (ix2 c 0) := by
  unfold poolCol
  rw [Cert.LibDot.matmul_10_zero_apply _ rfl rfl rfl rfl rfl rfl]
  refine Finset.sum_congr rfl fun c _ => ?_
  rw [truncf_apply]

theorem locCol_apply (W5b : FVec Ideal S64x1 .bf16) (l : FVec Ideal S4096x64 .f32) (r : Fin 4096) :
    locCol (F := Ideal) W5b l (ix2 r 0) = ∑ c : Fin 64, l (ix2 r c) * W5b (ix2 c 0) := by
  unfold locCol
  rw [Cert.LibDot.matmul_10_zero_apply _ rfl rfl rfl rfl rfl rfl]
  refine Finset.sum_congr rfl fun c _ => ?_
  rw [truncf_apply]

/-- The readout of the body at node k of batch element b, in the block's own entries. -/
theorem tail_apply (W6t W7t : FVec Ideal S64x64 .bf16) (W5a W5b : FVec Ideal S64x1 .bf16) (mu : FVec Ideal S32x128x64 .f32)
    (b : Fin 32) (k : Fin 128) :
    tail (F := Ideal) W6t W7t W5a W5b mu (ix3 b k 0)
      = (∑ p : Fin 64, max (∑ c : Fin 64, (∑ k' : Fin 128, mu (ix3 b k' c)) * W6t (ix2 c p)) 0 * W5a (ix2 p 0))
        + ∑ p : Fin 64, (∑ c : Fin 64, mu (ix3 b k c) * W7t (ix2 c p)) * W5b (ix2 p 0) := by
  unfold tail
  rw [addf_apply, spread_col_apply, fold_col_apply, poolCol_apply, locCol_apply]
  refine congrArg₂ (· + ·) (Finset.sum_congr rfl fun p _ => ?_) (Finset.sum_congr rfl fun p _ => ?_)
  · rw [poolBlk_apply]
  · rw [locBlk_apply]

/-- On a block that agrees with a family of embeddings, the body's readout is the specification's. -/
theorem tail_rep (W6t W7t : FVec Ideal S64x64 .bf16) (W5a W5b : FVec Ideal S64x1 .bf16) (mu : FVec Ideal S32x128x64 .f32)
    (M : Fin 32 → Feat) (hm : Rep mu M) (b : Fin 32) (k : Fin 128) :
    tail (F := Ideal) W6t W7t W5a W5b mu (ix3 b k 0)
      = readout (fun p => W5a (ix2 p 0)) (fun p => W5b (ix2 p 0)) (fun a c => W6t (ix2 c a)) (fun a c => W7t (ix2 c a)) (M b) k := by
  rw [tail_apply]
  unfold readout pooled loc colsum
  refine congrArg₂ (· + ·) (Finset.sum_congr rfl fun p _ => ?_) (Finset.sum_congr rfl fun p _ => ?_)
  · refine congrArg (fun t => max t 0 * W5a (ix2 p 0)) (Finset.sum_congr rfl fun c _ => ?_)
    refine congrArg (fun t => t * W6t (ix2 c p)) (Finset.sum_congr rfl fun k' _ => ?_)
    exact hm b k' c
  · refine congrArg (fun t => t * W5b (ix2 p 0)) (Finset.sum_congr rfl fun c _ => ?_)
    rw [hm b k c]

/-! ## Four rounds -/

/-- Four rounds of the body from the zero block are the specification's embedding, batch element by batch element. -/
theorem embed_rep (W2t W3t : FVec Ideal S64x64 .bf16) (xm tm : FVec Ideal S32x128x64 .f32) (XM TM : Fin 32 → Feat)
    (hx : Rep xm XM) (ht : Rep tm TM) :
    Rep (round (F := Ideal) W2t W3t xm tm (nodeSum tm) (round (F := Ideal) W2t W3t xm tm (nodeSum tm)
          (round (F := Ideal) W2t W3t xm tm (nodeSum tm) (round (F := Ideal) W2t W3t xm tm (nodeSum tm) zeroBlk))))
      (fun b => embed (XM b) (TM b) (fun a c => W2t (ix2 c a)) (fun a c => W3t (ix2 c a))) :=
  round_rep W2t W3t xm tm _ XM TM _ hx ht
    (round_rep W2t W3t xm tm _ XM TM _ hx ht
      (round_rep W2t W3t xm tm _ XM TM _ hx ht
        (round_rep W2t W3t xm tm _ XM TM _ hx ht zero_rep)))

/-! ## The output block -/

theorem hz3 : (![0, 0, 0] : Fin 3 → Nat) = fun _ => 0 := funext fun a => by fin_cases a <;> rfl

theorem hz2 : (![0, 0] : Fin 2 → Nat) = fun _ => 0 := funext fun a => by fin_cases a <;> rfl

/-- The body's result for the output window, from the ten operand blocks, is the specification over the block's 32
    batch elements (the square weights arrive transposed, the readout weight as two columns). -/
theorem out_eq (x0 x1 : Vec Ideal S32x128x1 .f32) (x2 x3 : Vec Ideal S64x1 .f32) (x4 x5 x6 x7 : Vec Ideal S64x64 .f32)
    (x8 x9 : Vec Ideal S64x1 .f32) :
    out0_10 (F := Ideal) x0 x1 x2 x3 x4 x5 x6 x7 x8 x9 = Cert.Gnn.ofTransposed (n := 32) x0 x1 x2 x3 x4 x5 x6 x7 x8 x9 := by
  unfold out0_10
  rw [View.canon_unit_zero hz3]
  simp only [View.ld_unit_zero (S := S32x128x1) hz3, View.ld_unit_zero (S := S64x1) hz2, View.ld_unit_zero (S := S64x64) hz2]
  rw [body_eq, st_eq, pay1_eq, pay2_eq, pay3_eq, pay4_eq, pay5_eq, pay6_eq]
  funext i
  obtain ⟨b, k, z, rfl⟩ : ∃ (b : Fin 32) (k : Fin 128) (z : Fin 1), i = ix3 b k z := ⟨i 0, i 1, i 2, eq_ix3 i⟩
  obtain rfl : z = 0 := Subsingleton.elim _ _
  rw [tail_rep x6 x7 x8 x9 _ _ (embed_rep x4 x5 _ _ _ _ (xm_rep x0 x2) (tm_rep x1 x3)) b k]
  rfl

end Cert.KernelIdeal.Body

end
-- ==== Proof.KernelValue.lean ====
/-
  The kernel's result array after the run is the specification's function of the nine argument arrays.

  The grid has 128 points; point t stages rows 32 t .. 32 t + 31 of x and w and the eight weight arrays whole, and
  writes back rows 32 t .. 32 t + 31 of the result.  A block of the specification over the whole arrays is the
  specification over the blocks, because a batch element's result depends on that element's rows only; the weight
  arrays the region finds are the arguments transposed (and, for the readout weight, its two halves as columns).
-/
import proofs.«179231_j29755533427211_1_alg».proof.Proof.Gen.KernelIdeal.Value
import proofs.«179231_j29755533427211_1_alg».proof.Proof.KernelBody
import Idealize.ShloMosaic.Lib.ValueLayout
import Idealize.ShloMosaic.Lib.StableHlo.Run

noncomputable section

namespace Cert.KernelIdeal.Whole

open Cert.KernelIdeal Cert.KernelIdeal.Gen Cert.KernelIdeal.Value
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The result array as the specification gives it from the argument arrays as launched. -/
def G (c : Dev nD) : S4096x128x1.Idx → EReal :=
  Cert.Gnn.ofArgs (n := 4096) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-! ## The weight arrays the region finds -/

theorem V_v0 (c : Dev nD) : (V m c main_v0 : S64x64.Idx → EReal)
    = transpose S64x64 [1, 0] (m ((c : Thread nD τ).loc main_arg3)) transposes_S64x64_S64x64_1_0 := by
  dsimp only [Gen.V, Gen.hostOps0]; after_results

theorem V_v1 (c : Dev nD) : (V m c main_v1 : S64x64.Idx → EReal)
    = transpose S64x64 [1, 0] (m ((c : Thread nD τ).loc main_arg4)) transposes_S64x64_S64x64_1_0 := by
  dsimp only [Gen.V, Gen.hostOps0]; after_results

theorem V_v2 (c : Dev nD) : (V m c main_v2 : S64x64.Idx → EReal)
    = transpose S64x64 [1, 0] (m ((c : Thread nD τ).loc main_arg7)) transposes_S64x64_S64x64_1_0 := by
  dsimp only [Gen.V, Gen.hostOps0]; after_results

theorem V_v3 (c : Dev nD) : (V m c main_v3 : S64x64.Idx → EReal)
    = transpose S64x64 [1, 0] (m ((c : Thread nD τ).loc main_arg8)) transposes_S64x64_S64x64_1_0 := by
  dsimp only [Gen.V, Gen.hostOps0]; after_results

theorem V_v6 (c : Dev nD) : (V m c main_v6 : S64x1.Idx → EReal)
    = transpose S64x1 [1, 0] (extractStridedSlice S1x64 ![0, 0] (m ((c : Thread nD τ).loc main_arg6)) slices_S1x128_S1x64_0_0) transposes_S1x64_S64x1_1_0 := by
  dsimp only [Gen.V, Gen.hostOps0]; after_results

theorem V_v7 (c : Dev nD) : (V m c main_v7 : S64x1.Idx → EReal)
    = transpose S64x1 [1, 0] (extractStridedSlice S1x64 ![0, 64] (m ((c : Thread nD τ).loc main_arg6)) slices_S1x128_S1x64_0_64) transposes_S1x64_S64x1_1_0 := by
  dsimp only [Gen.V, Gen.hostOps0]; after_results

/-! ## The index maps over the grid -/

/-- Point t stages block t of x, w and the result along the batch axis and block 0 of every other axis and array. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_10.index t (0 : Fin 3) = t.val ∧ win0_10.index t (1 : Fin 3) = 0 ∧ win0_10.index t (2 : Fin 3) = 0
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] :=
  (by decide +kernel : ∀ t : Fin grid0.N, _)

/-! ## The blocks of the operands at a point, read off the arguments -/

/-- Row 32 t + b of an array of 4096 batch elements. -/
abbrev row (t : Fin cfg0.N) (b : Fin 32) : Fin 4096 := ⟨32 * t.val + b.val, by have := t.isLt; have h : cfg0.N = 128 := N_0; have := b.isLt; omega⟩

theorem blk0 (c : Dev nD) (t : Fin cfg0.N) (b : Fin 32) (k : Fin 128) :
    iblk m c 0 t (ix3 b k 0) = m ((c : Thread nD τ).loc main_arg0) (ix3 (row t b) k 0) := by
  obtain ⟨a0, a1, a2, -⟩ := idx_facts t
  show V m c main_arg0 (((cfg0.win 0).blk t).view.emb (ix3 b k 0)) = _
  rw [V_main_arg0]
  refine congrArg _ (funext fun a => Fin.ext ?_)
  match a with
  | ⟨0, _⟩ => show win0_0.index t (0 : Fin 3) * 32 + 1 * b.val = 32 * t.val + b.val; omega
  | ⟨1, _⟩ => show win0_0.index t (1 : Fin 3) * 128 + 1 * k.val = k.val; omega
  | ⟨2, _⟩ => show win0_0.index t (2 : Fin 3) * 1 + 1 * 0 = 0; omega

theorem blk1 (c : Dev nD) (t : Fin cfg0.N) (b : Fin 32) (k : Fin 128) :
    iblk m c 1 t (ix3 b k 0) = m ((c : Thread nD τ).loc main_arg1) (ix3 (row t b) k 0) := by
  obtain ⟨-, -, -, b0, b1, b2, -⟩ := idx_facts t
  show V m c main_arg1 (((cfg0.win 1).blk t).view.emb (ix3 b k 0)) = _
  rw [V_main_arg1]
  refine congrArg _ (funext fun a => Fin.ext ?_)
  match a with
  | ⟨0, _⟩ => show win0_1.index t (0 : Fin 3) * 32 + 1 * b.val = 32 * t.val + b.val; omega
  | ⟨1, _⟩ => show win0_1.index t (1 : Fin 3) * 128 + 1 * k.val = k.val; omega
  | ⟨2, _⟩ => show win0_1.index t (2 : Fin 3) * 1 + 1 * 0 = 0; omega

theorem blk2 (c : Dev nD) (t : Fin cfg0.N) (p : Fin 64) :
    iblk m c 2 t (ix2 p 0) = m ((c : Thread nD τ).loc main_arg2) (ix2 p 0) := by
  obtain ⟨-, -, -, -, -, -, -, -, -, e2, -⟩ := idx_facts t
  show V m c main_arg2 (((cfg0.win 2).blk t).view.emb (ix2 p 0)) = _
  rw [V_main_arg2]
  refine congrArg _ (funext fun a => Fin.ext ?_)
  match a with
  | ⟨0, _⟩ => show win0_2.index t (0 : Fin 2) * 64 + 1 * p.val = p.val; rw [e2]; show 0 * 64 + 1 * p.val = p.val; omega
  | ⟨1, _⟩ => show win0_2.index t (1 : Fin 2) * 1 + 1 * 0 = 0; rw [e2]; rfl

theorem blk3 (c : Dev nD) (t : Fin cfg0.N) (p : Fin 64) :
    iblk m c 3 t (ix2 p 0) = m ((c : Thread nD τ).loc main_arg5) (ix2 p 0) := by
  obtain ⟨-, -, -, -, -, -, -, -, -, -, e3, -⟩ := idx_facts t
  show V m c main_arg5 (((cfg0.win 3).blk t).view.emb (ix2 p 0)) = _
  rw [V_main_arg5]
  refine congrArg _ (funext fun a => Fin.ext ?_)
  match a with
  | ⟨0, _⟩ => show win0_3.index t (0 : Fin 2) * 64 + 1 * p.val = p.val; rw [e3]; show 0 * 64 + 1 * p.val = p.val; omega
  | ⟨1, _⟩ => show win0_3.index t (1 : Fin 2) * 1 + 1 * 0 = 0; rw [e3]; rfl

/-- A square weight's block is the whole transposed array: entry (input channel, output channel) of the block is
    entry (output channel, input channel) of the argument. -/
theorem blk4 (c : Dev nD) (t : Fin cfg0.N) (a' c' : Fin 64) :
    iblk m c 4 t (ix2 c' a') = m ((c : Thread nD τ).loc main_arg3) (ix2 a' c') := by
  obtain ⟨-, -, -, -, -, -, -, -, -, -, -, e4, -⟩ := idx_facts t
  have he : ((cfg0.win 4).blk t).view.emb (ix2 c' a') = ix2 c' a' := by
    funext a; apply Fin.ext
    match a with
    | ⟨0, _⟩ => show win0_4.index t (0 : Fin 2) * 64 + 1 * c'.val = c'.val; rw [e4]; show 0 * 64 + 1 * c'.val = c'.val; omega
    | ⟨1, _⟩ => show win0_4.index t (1 : Fin 2) * 64 + 1 * a'.val = a'.val; rw [e4]; show 0 * 64 + 1 * a'.val = a'.val; omega
  show V m c main_v0 (((cfg0.win 4).blk t).view.emb (ix2 c' a')) = _
  rw [he, V_v0]
  exact transpose_ix2_apply _ _ c' a'

theorem blk5 (c : Dev nD) (t : Fin cfg0.N) (a' c' : Fin 64) :
    iblk m c 5 t (ix2 c' a') = m ((c : Thread nD τ).loc main_arg4) (ix2 a' c') := by
  obtain ⟨-, -, -, -, -, -, -, -, -, -, -, -, e5, -⟩ := idx_facts t
  have he : ((cfg0.win 5).blk t).view.emb (ix2 c' a') = ix2 c' a' := by
    funext a; apply Fin.ext
    match a with
    | ⟨0, _⟩ => show win0_5.index t (0 : Fin 2) * 64 + 1 * c'.val = c'.val; rw [e5]; show 0 * 64 + 1 * c'.val = c'.val; omega
    | ⟨1, _⟩ => show win0_5.index t (1 : Fin 2) * 64 + 1 * a'.val = a'.val; rw [e5]; show 0 * 64 + 1 * a'.val = a'.val; omega
  show V m c main_v1 (((cfg0.win 5).blk t).view.emb (ix2 c' a')) = _
  rw [he, V_v1]
  exact transpose_ix2_apply _ _ c' a'

theorem blk6 (c : Dev nD) (t : Fin cfg0.N) (a' c' : Fin 64) :
    iblk m c 6 t (ix2 c' a') = m ((c : Thread nD τ).loc main_arg7) (ix2 a' c') := by
  obtain ⟨-, -, -, -, -, -, -, -, -, -, -, -, -, e6, -⟩ := idx_facts t
  have he : ((cfg0.win 6).blk t).view.emb (ix2 c' a') = ix2 c' a' := by
    funext a; apply Fin.ext
    match a with
    | ⟨0, _⟩ => show win0_6.index t (0 : Fin 2) * 64 + 1 * c'.val = c'.val; rw [e6]; show 0 * 64 + 1 * c'.val = c'.val; omega
    | ⟨1, _⟩ => show win0_6.index t (1 : Fin 2) * 64 + 1 * a'.val = a'.val; rw [e6]; show 0 * 64 + 1 * a'.val = a'.val; omega
  show V m c main_v2 (((cfg0.win 6).blk t).view.emb (ix2 c' a')) = _
  rw [he, V_v2]
  exact transpose_ix2_apply _ _ c' a'

theorem blk7 (c : Dev nD) (t : Fin cfg0.N) (a' c' : Fin 64) :
    iblk m c 7 t (ix2 c' a') = m ((c : Thread nD τ).loc main_arg8) (ix2 a' c') := by
  obtain ⟨-, -, -, -, -, -, -, -, -, -, -, -, -, -, e7, -⟩ := idx_facts t
  have he : ((cfg0.win 7).blk t).view.emb (ix2 c' a') = ix2 c' a' := by
    funext a; apply Fin.ext
    match a with
    | ⟨0, _⟩ => show win0_7.index t (0 : Fin 2) * 64 + 1 * c'.val = c'.val; rw [e7]; show 0 * 64 + 1 * c'.val = c'.val; omega
    | ⟨1, _⟩ => show win0_7.index t (1 : Fin 2) * 64 + 1 * a'.val = a'.val; rw [e7]; show 0 * 64 + 1 * a'.val = a'.val; omega
  show V m c main_v3 (((cfg0.win 7).blk t).view.emb (ix2 c' a')) = _
  rw [he, V_v3]
  exact transpose_ix2_apply _ _ c' a'

/-- The pooled head's readout column is the first half of the readout row. -/
theorem blk8 (c : Dev nD) (t : Fin cfg0.N) (p : Fin 64) :
    iblk m c 8 t (ix2 p 0) = m ((c : Thread nD τ).loc main_arg6) (ix2 0 ⟨p.val, by have := p.isLt; omega⟩) := by
  obtain ⟨-, -, -, -, -, -, -, -, -, -, -, -, -, -, -, e8, -⟩ := idx_facts t
  have he : ((cfg0.win 8).blk t).view.emb (ix2 p 0) = ix2 p 0 := by
    funext a; apply Fin.ext
    match a with
    | ⟨0, _⟩ => show win0_8.index t (0 : Fin 2) * 64 + 1 * p.val = p.val; rw [e8]; show 0 * 64 + 1 * p.val = p.val; omega
    | ⟨1, _⟩ => show win0_8.index t (1 : Fin 2) * 1 + 1 * 0 = 0; rw [e8]; rfl
  show V m c main_v6 (((cfg0.win 8).blk t).view.emb (ix2 p 0)) = _
  rw [he, V_v6]
  refine (transpose_ix2_apply _ _ p (0 : Fin 1)).trans ?_
  exact slice2_axis1_apply 0 _ _ (0 : Fin 1) p ⟨p.val, by have := p.isLt; omega⟩ (Nat.zero_add _).symm

/-- The local head's readout column is the second half of the readout row. -/
theorem blk9 (c : Dev nD) (t : Fin cfg0.N) (p : Fin 64) :
    iblk m c 9 t (ix2 p 0) = m ((c : Thread nD τ).loc main_arg6) (ix2 0 ⟨64 + p.val, by have := p.isLt; omega⟩) := by
  obtain ⟨-, -, -, -, -, -, -, -, -, -, -, -, -, -, -, -, e9⟩ := idx_facts t
  have he : ((cfg0.win 9).blk t).view.emb (ix2 p 0) = ix2 p 0 := by
    funext a; apply Fin.ext
    match a with
    | ⟨0, _⟩ => show win0_9.index t (0 : Fin 2) * 64 + 1 * p.val = p.val; rw [e9]; show 0 * 64 + 1 * p.val = p.val; omega
    | ⟨1, _⟩ => show win0_9.index t (1 : Fin 2) * 1 + 1 * 0 = 0; rw [e9]; rfl
  show V m c main_v7 (((cfg0.win 9).blk t).view.emb (ix2 p 0)) = _
  rw [he, V_v7]
  refine (transpose_ix2_apply _ _ p (0 : Fin 1)).trans ?_
  exact slice2_axis1_apply 64 _ _ (0 : Fin 1) p ⟨64 + p.val, by have := p.isLt; omega⟩ rfl

/-- The specification's function of one batch element takes equal arguments to equal values. -/
theorem q_congr {x x' w w' : Fin 128 → EReal} {W1 W1' W4 W4' : Fin 64 → EReal} {W2 W2' W3 W3' W6 W6' W7 W7' : Cert.Gnn.Mat}
    {W5a W5a' W5b W5b' : Fin 64 → EReal} (k : Fin 128) (hx : x = x') (hw : w = w') (h1 : W1 = W1') (h4 : W4 = W4')
    (h2 : W2 = W2') (h3 : W3 = W3') (h6 : W6 = W6') (h7 : W7 = W7') (h5a : W5a = W5a') (h5b : W5b = W5b') :
    Cert.Gnn.q x w W1 W4 W2 W3 W6 W7 W5a W5b k = Cert.Gnn.q x' w' W1' W4' W2' W3' W6' W7' W5a' W5b' k := by
  subst hx hw h1 h4 h2 h3 h6 h7 h5a h5b; rfl

/-- WHAT POINT t WRITES BACK is block t of the specification over the whole argument arrays. -/
theorem flushed_eq (c : Dev nD) (t : Fin cfg0.N) :
    (dats m 0 c).flushed 10 t = ((cfg0.win 10).blk t).view.read (Elt Ideal) (G m c) := by
  rw [Value.flushed10, Cert.KernelIdeal.Body.out_eq]
  obtain ⟨-, -, -, -, -, -, o0, o1, o2, -⟩ := idx_facts t
  funext j
  obtain ⟨b, k, z, rfl⟩ : ∃ (b : Fin 32) (k : Fin 128) (z : Fin 1), j = ix3 b k z := ⟨j 0, j 1, j 2, eq_ix3 j⟩
  obtain rfl : z = 0 := Subsingleton.elim _ _
  have he : ((cfg0.win 10).blk t).view.emb (ix3 b k 0) = ix3 (row t b) k 0 := by
    funext a; apply Fin.ext
    match a with
    | ⟨0, _⟩ => show win0_10.index t (0 : Fin 3) * 32 + 1 * b.val = 32 * t.val + b.val; omega
    | ⟨1, _⟩ => show win0_10.index t (1 : Fin 3) * 128 + 1 * k.val = k.val; omega
    | ⟨2, _⟩ => show win0_10.index t (2 : Fin 3) * 1 + 1 * 0 = 0; omega
  show Cert.Gnn.ofTransposed (n := 32) (iblk m c 0 t) (iblk m c 1 t) (iblk m c 2 t) (iblk m c 3 t) (iblk m c 4 t) (iblk m c 5 t)
        (iblk m c 6 t) (iblk m c 7 t) (iblk m c 8 t) (iblk m c 9 t) (ix3 b k 0) = G m c (((cfg0.win 10).blk t).view.emb (ix3 b k 0))
  rw [he]
  exact q_congr k (funext fun k' => blk0 m c t b k') (funext fun k' => blk1 m c t b k') (funext fun p => blk2 m c t p)
    (funext fun p => blk3 m c t p) (funext fun a' => funext fun c' => blk4 m c t a' c') (funext fun a' => funext fun c' => blk5 m c t a' c')
    (funext fun a' => funext fun c' => blk6 m c t a' c') (funext fun a' => funext fun c' => blk7 m c t a' c')
    (funext fun p => blk8 m c t p) (funext fun p => blk9 m c t p)

/-! ## The blocks tile the array -/

/-- An index of the result array is in point t's block iff each coordinate is in the block's range on its axis. -/
theorem mem_blk (t : Fin cfg0.N) (i : S4096x128x1.Idx) :
    i ∈ ((cfg0.win 10).blk t).view.set ↔ ∀ a : Fin 3, win0_10.index t a * S32x128x1.size a ≤ (i a).val ∧ (i a).val < win0_10.index t a * S32x128x1.size a + S32x128x1.size a := by
  show i ∈ ((View.whole main_v8).slice (win0_10.rect t)).set ↔ _
  rw [View.set_slice_whole, Rect.mem_set_unit]
  exact Iff.rfl

/-- Row r of the result lies in the block of point r / 32. -/
theorem cover (i : S4096x128x1.Idx) : ∃ t : Fin cfg0.N, (cfg0.win 10).flush t = true ∧ i ∈ ((cfg0.win 10).blk t).view.set := by
  have hi0 : (i 0).val < 4096 := (i 0).isLt
  have hi1 : (i 1).val < 128 := (i 1).isLt
  have hi2 : (i 2).val < 1 := (i 2).isLt
  have hN : cfg0.N = 128 := N_0
  refine ⟨⟨(i 0).val / 32, by omega⟩, flush0_10 _, ?_⟩
  obtain ⟨-, -, -, -, -, -, o0, o1, o2, -⟩ := idx_facts ⟨(i 0).val / 32, by omega⟩
  rw [mem_blk]
  intro a
  match a with
  | ⟨0, _⟩ => show win0_10.index _ (0 : Fin 3) * 32 ≤ (i 0).val ∧ (i 0).val < win0_10.index _ (0 : Fin 3) * 32 + 32; rw [o0]; show (i 0).val / 32 * 32 ≤ (i 0).val ∧ (i 0).val < (i 0).val / 32 * 32 + 32; omega
  | ⟨1, _⟩ => show win0_10.index _ (1 : Fin 3) * 128 ≤ (i 1).val ∧ (i 1).val < win0_10.index _ (1 : Fin 3) * 128 + 128; rw [o1]; omega
  | ⟨2, _⟩ => show win0_10.index _ (2 : Fin 3) * 1 ≤ (i 2).val ∧ (i 2).val < win0_10.index _ (2 : Fin 3) * 1 + 1; rw [o2]; omega

/-- THE ARRAY after the run is the specification's function of the arguments. -/
theorem final (c : Dev nD) : (dats m 0 c).arrAt 10 cfg0.N = G m c :=
  (dats m 0 c).arrAt_eq_of_cover 10 (G m c) (fun t _ => flushed_eq m c t) cover

/-- The kernel's run: the result array at the specification's function of the arguments, the arguments unchanged. -/
theorem run : θ_run defs (onTc (τ := τ) (main (F := Ideal))) ⟨m, fun _ => 0, ρ⟩ fun r => ∀ c : Dev nD,
      r.2.mem ((c : Thread nD τ).loc main_v8) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Whole

end
-- ==== Proof.RefValue.lean ====
/-
  The reference program's result array is the specification's function of its nine argument arrays.
-/
import proofs.«179231_j29755533427211_1_alg».proof.Proof.Gen.ReferenceIdeal.Read
import proofs.«179231_j29755533427211_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The arrays of 4096 batch elements by 128 nodes by 64 channels. -/
abbrev V3 := (⟨S4096x128x64, .f32⟩ : BufTy).Contents (Elt Ideal)

/-- An array whose batch element b is the feature table f b. -/
abbrev RepR (v : V3) (f : Fin 4096 → Cert.Gnn.Feat) : Prop :=
  ∀ (b : Fin 4096) (k : Fin 128) (p : Fin 64), v (ix3 b k p) = f b k p

/-! ### Where each stage reads its operands -/

theorem lidx_one (b : Fin 4096) (k : Fin 128) (p : Fin 64) (j : Fin 1) :
    lidx_main_v4 (ix3 b k p) j = ix3 b k j :=
  funext fun a => Fin.ext (by match a with | ⟨0, _⟩ => rfl | ⟨1, _⟩ => rfl | ⟨2, _⟩ => rfl)

theorem ridx_one (b : Fin 4096) (k : Fin 128) (p : Fin 64) (j : Fin 1) :
    ridx_main_v4 (ix3 b k p) j = ix2 p j :=
  funext fun a => Fin.ext (by match a with | ⟨0, _⟩ => rfl | ⟨1, _⟩ => rfl)

theorem lidx_chan (b : Fin 4096) (k : Fin 128) (q p : Fin 64) :
    lidx_main_v10 (ix3 b k q) p = ix3 b k p :=
  funext fun a => Fin.ext (by match a with | ⟨0, _⟩ => rfl | ⟨1, _⟩ => rfl | ⟨2, _⟩ => rfl)

theorem ridx_chan (b : Fin 4096) (k : Fin 128) (q p : Fin 64) :
    ridx_main_v10 (ix3 b k q) p = ix2 q p :=
  funext fun a => Fin.ext (by match a with | ⟨0, _⟩ => rfl | ⟨1, _⟩ => rfl)

theorem idx_allnodes (b : Fin 4096) (k : Fin 128) (p : Fin 64) :
    idx_main_v8 (ix3 b k p) = ix3 b 0 p :=
  funext fun a => Fin.ext (by match a with | ⟨0, _⟩ => rfl | ⟨1, _⟩ => rfl | ⟨2, _⟩ => rfl)

theorem idx_keepdim (b : Fin 4096) (z : Fin 1) (p : Fin 64) :
    idx_main_v7 (ix3 b z p) = ix2 b p :=
  funext fun a => Fin.ext (by match a with | ⟨0, _⟩ => rfl | ⟨1, _⟩ => rfl)

theorem idx_node (b : Fin 4096) (p : Fin 64) (k : Fin 128) :
    idx_main_v6 (ix2 b p) k = ix3 b k p :=
  funext fun a => Fin.ext (by match a with | ⟨0, _⟩ => rfl | ⟨1, _⟩ => rfl | ⟨2, _⟩ => rfl)

/-! ### The two messages -/

section
variable (x0 x1 : (⟨S4096x128x1, .f32⟩ : BufTy).Contents (Elt Ideal)) (x2 x5 : (⟨S64x1, .f32⟩ : BufTy).Contents (Elt Ideal))

/-- The node messages of batch element b. -/
def XM (b : Fin 4096) : Cert.Gnn.Feat := Cert.Gnn.outer (fun k => x0 (ix3 b k 0)) (fun p => x2 (ix2 p 0))

/-- The edge messages of batch element b. -/
def TM (b : Fin 4096) : Cert.Gnn.Feat := Cert.Gnn.relu (Cert.Gnn.outer (fun k => x1 (ix3 b k 0)) (fun p => x5 (ix2 p 0)))

theorem xm_rep : RepR (val_main_v4 (F := Ideal) x0 x2) (XM x0 x2) := by
  intro b k p
  rw [val_main_v4_apply, Fin.sum_univ_one, lidx_one, ridx_one]
  rfl

theorem tm_rep : RepR (val_main_v1 (F := Ideal) x1 x5) (TM x1 x5) := by
  intro b k p
  rw [val_main_v1_apply, val_main_v0_apply, val_main_call0_v0_apply, val_main_call0_cst_apply, Fin.sum_univ_one]
  rw [show lidx_main_v0 (ix3 b k p) 0 = ix3 b k 0 from lidx_one b k p 0, show ridx_main_v0 (ix3 b k p) 0 = ix2 p 0 from ridx_one b k p 0]
  rw [Ideal.maximumf_def, Ideal.ofBits_def, Ideal.ofBits_zero_f32]
  rfl

end

/-! ### One round, over any arrays -/

/-- The node sum of an array, with the summed axis kept and spread back over the nodes, less the array itself. -/
theorem colsum_sub (y : V3) (M : Fin 4096 → Cert.Gnn.Feat) (hM : RepR y M) (b : Fin 4096) (k : Fin 128) (p : Fin 64) :
    FloatOps.subf (FloatOps.ofBits (F := Ideal) .f32 0x00000000#32
        + ∑ k' : Fin 128, y (idx_main_v6 (idx_main_v7 (idx_main_v8 (ix3 b k p))) k')) (y (ix3 b k p))
      = Cert.Gnn.colsum (M b) p - M b k p := by
  rw [idx_allnodes, idx_keepdim, Ideal.subf_def, Ideal.ofBits_def, Ideal.ofBits_zero_f32, zero_add, hM b k p]
  simp only [idx_node, hM]
  rfl

/-- One round's result from its three terms. -/
theorem step_of_terms (xm msub tsub : V3) (x3 x4 : (⟨S64x64, .f32⟩ : BufTy).Contents (Elt Ideal))
    (X T M : Fin 4096 → Cert.Gnn.Feat) (hx : RepR xm X)
    (hm : ∀ (b : Fin 4096) (k : Fin 128) (p : Fin 64), msub (ix3 b k p) = Cert.Gnn.colsum (M b) p - M b k p)
    (ht : ∀ (b : Fin 4096) (k : Fin 128) (p : Fin 64), tsub (ix3 b k p) = Cert.Gnn.colsum (T b) p - T b k p)
    (b : Fin 4096) (k : Fin 128) (q : Fin 64) :
    FloatOps.maximumf (FloatOps.addf (FloatOps.addf (xm (ix3 b k q))
        (∑ p : Fin 64, msub (lidx_main_v10 (ix3 b k q) p) * x3 (ridx_main_v10 (ix3 b k q) p)))
        (∑ p : Fin 64, tsub (lidx_main_v14 (ix3 b k q) p) * x4 (ridx_main_v14 (ix3 b k q) p)))
        (FloatOps.ofBits (F := Ideal) .f32 0x00000000#32)
      = Cert.Gnn.step (X b) (T b) (fun a c => x3 (ix2 a c)) (fun a c => x4 (ix2 a c)) (M b) k q := by
  rw [Ideal.maximumf_def, Ideal.addf_def, Ideal.addf_def, Ideal.ofBits_def, Ideal.ofBits_zero_f32, hx b k q]
  simp only [lidx_chan, ridx_chan, show ∀ p, lidx_main_v14 (ix3 b k q) p = ix3 b k p from lidx_chan b k q,
    show ∀ p, ridx_main_v14 (ix3 b k q) p = ix2 q p from ridx_chan b k q, hm, ht]
  rfl

/-! ### The four rounds of the program -/

section
variable (x0 x1 : (⟨S4096x128x1, .f32⟩ : BufTy).Contents (Elt Ideal)) (x2 : (⟨S64x1, .f32⟩ : BufTy).Contents (Elt Ideal))
  (x3 x4 : (⟨S64x64, .f32⟩ : BufTy).Contents (Elt Ideal)) (x5 : (⟨S64x1, .f32⟩ : BufTy).Contents (Elt Ideal))

/-- The edge term: the node sum of the edge messages, spread over the nodes, less the node's own. -/
theorem tm_sub (b : Fin 4096) (k : Fin 128) (p : Fin 64) :
    FloatOps.subf (F := Ideal) (φ := .f32) (val_main_v3 (F := Ideal) x1 x5 (idx_main_v12 (ix3 b k p))) (val_main_v1 (F := Ideal) x1 x5 (ix3 b k p))
      = Cert.Gnn.colsum (TM x1 x5 b) p - TM x1 x5 b k p := by
  rw [val_main_v3_apply, val_main_v2_apply, val_main_cst_apply]
  exact colsum_sub (val_main_v1 (F := Ideal) x1 x5) (TM x1 x5) (tm_rep x1 x5) b k p

/-- The zero embedding the rounds start from. -/
theorem zero_rep : RepR (val_main_v5 (F := Ideal)) (fun _ _ _ => 0) := by
  intro b k p
  rw [val_main_v5_apply, val_main_cst_0_apply, Ideal.ofBits_def, Ideal.ofBits_zero_f32]

/-- The step of the specification at this program's arguments. -/
abbrev stepR (M : Fin 4096 → Cert.Gnn.Feat) : Fin 4096 → Cert.Gnn.Feat := fun b =>
  Cert.Gnn.step (XM x0 x2 b) (TM x1 x5 b) (fun a c => x3 (ix2 a c)) (fun a c => x4 (ix2 a c)) (M b)

theorem round1 : RepR (val_main_v16 (F := Ideal) x0 x1 x2 x3 x4 x5) (stepR x0 x1 x2 x3 x4 x5 (fun _ _ _ => 0)) := by
  intro b k q
  rw [val_main_v16_apply, val_main_v15_apply, val_main_v11_apply, val_main_v10_apply, val_main_v14_apply,
    val_main_call1_v0_apply, val_main_call1_cst_apply]
  refine step_of_terms (val_main_v4 (F := Ideal) x0 x2) (val_main_v9 (F := Ideal)) (val_main_v13 (F := Ideal) x1 x5) x3 x4
    (XM x0 x2) (TM x1 x5) (fun _ _ _ => 0) (xm_rep x0 x2) (fun b k p => ?_) (fun b k p => ?_) b k q
  · rw [val_main_v9_apply, val_main_v8_apply, val_main_v7_apply, val_main_v6_apply, val_main_cst_1_apply]
    exact colsum_sub _ _ zero_rep b k p
  · rw [val_main_v13_apply, val_main_v12_apply]
    exact tm_sub x1 x5 b k p

theorem round2 (M : Fin 4096 → Cert.Gnn.Feat) (hM : RepR (val_main_v16 (F := Ideal) x0 x1 x2 x3 x4 x5) M) :
    RepR (val_main_v27 (F := Ideal) x0 x1 x2 x3 x4 x5) (stepR x0 x1 x2 x3 x4 x5 M) := by
  intro b k q
  rw [val_main_v27_apply, val_main_v26_apply, val_main_v22_apply, val_main_v21_apply, val_main_v25_apply,
    val_main_call2_v0_apply, val_main_call2_cst_apply]
  refine step_of_terms _ _ _ x3 x4 _ _ _ (xm_rep x0 x2) (fun b k p => ?_) (fun b k p => ?_) b k q
  · rw [val_main_v20_apply, val_main_v19_apply, val_main_v18_apply, val_main_v17_apply, val_main_cst_2_apply]
    exact colsum_sub _ _ hM b k p
  · rw [val_main_v24_apply, val_main_v23_apply]
    exact tm_sub x1 x5 b k p

theorem round3 (M : Fin 4096 → Cert.Gnn.Feat) (hM : RepR (val_main_v27 (F := Ideal) x0 x1 x2 x3 x4 x5) M) :
    RepR (val_main_v38 (F := Ideal) x0 x1 x2 x3 x4 x5) (stepR x0 x1 x2 x3 x4 x5 M) := by
  intro b k q
  rw [val_main_v38_apply, val_main_v37_apply, val_main_v33_apply, val_main_v32_apply, val_main_v36_apply,
    val_main_call3_v0_apply, val_main_call3_cst_apply]
  refine step_of_terms _ _ _ x3 x4 _ _ _ (xm_rep x0 x2) (fun b k p => ?_) (fun b k p => ?_) b k q
  · rw [val_main_v31_apply, val_main_v30_apply, val_main_v29_apply, val_main_v28_apply, val_main_cst_3_apply]
    exact colsum_sub _ _ hM b k p
  · rw [val_main_v35_apply, val_main_v34_apply]
    exact tm_sub x1 x5 b k p

theorem round4 (M : Fin 4096 → Cert.Gnn.Feat) (hM : RepR (val_main_v38 (F := Ideal) x0 x1 x2 x3 x4 x5) M) :
    RepR (val_main_v49 (F := Ideal) x0 x1 x2 x3 x4 x5) (stepR x0 x1 x2 x3 x4 x5 M) := by
  intro b k q
  rw [val_main_v49_apply, val_main_v48_apply, val_main_v44_apply, val_main_v43_apply, val_main_v47_apply,
    val_main_call4_v0_apply, val_main_call4_cst_apply]
  refine step_of_terms _ _ _ x3 x4 _ _ _ (xm_rep x0 x2) (fun b k p => ?_) (fun b k p => ?_) b k q
  · rw [val_main_v42_apply, val_main_v41_apply, val_main_v40_apply, val_main_v39_apply, val_main_cst_4_apply]
    exact colsum_sub _ _ hM b k p
  · rw [val_main_v46_apply, val_main_v45_apply]
    exact tm_sub x1 x5 b k p

/-- The embedding of batch element b: four rounds from zero. -/
abbrev EMB (b : Fin 4096) : Cert.Gnn.Feat :=
  Cert.Gnn.embed (XM x0 x2 b) (TM x1 x5 b) (fun a c => x3 (ix2 a c)) (fun a c => x4 (ix2 a c))

theorem embed_rep : RepR (val_main_v49 (F := Ideal) x0 x1 x2 x3 x4 x5) (EMB x0 x1 x2 x3 x4 x5) :=
  round4 x0 x1 x2 x3 x4 x5 _ (round3 x0 x1 x2 x3 x4 x5 _ (round2 x0 x1 x2 x3 x4 x5 _ (round1 x0 x1 x2 x3 x4 x5)))

end

/-! ### The readout -/

theorem lidx_pool (b : Fin 4096) (q p : Fin 64) : lidx_main_v51 (ix2 b q) p = ix2 b p :=
  funext fun a => Fin.ext (by match a with | ⟨0, _⟩ => rfl | ⟨1, _⟩ => rfl)

theorem ridx_pool (b : Fin 4096) (q p : Fin 64) : ridx_main_v51 (ix2 b q) p = ix2 q p :=
  funext fun a => Fin.ext (by match a with | ⟨0, _⟩ => rfl | ⟨1, _⟩ => rfl)

theorem lidx_head (b : Fin 4096) (z : Fin 1) (p : Fin 64) : lidx_main_v56 (ix2 b z) p = ix2 b p :=
  funext fun a => Fin.ext (by match a with | ⟨0, _⟩ => rfl | ⟨1, _⟩ => rfl)

theorem ridx_head (b : Fin 4096) (z : Fin 1) (p : Fin 64) : ridx_main_v56 (ix2 b z) p = ix2 z p :=
  funext fun a => Fin.ext (by match a with | ⟨0, _⟩ => rfl | ⟨1, _⟩ => rfl)

theorem lidx_lochead (b : Fin 4096) (k : Fin 128) (z : Fin 1) (p : Fin 64) : lidx_main_v58 (ix3 b k z) p = ix3 b k p :=
  funext fun a => Fin.ext (by match a with | ⟨0, _⟩ => rfl | ⟨1, _⟩ => rfl | ⟨2, _⟩ => rfl)

theorem ridx_lochead (b : Fin 4096) (k : Fin 128) (z : Fin 1) (p : Fin 64) : ridx_main_v58 (ix3 b k z) p = ix2 z p :=
  funext fun a => Fin.ext (by match a with | ⟨0, _⟩ => rfl | ⟨1, _⟩ => rfl)

theorem idx_spread (b : Fin 4096) (k : Fin 128) (z : Fin 1) : idx_main_v59 (ix3 b k z) = ix3 b 0 0 :=
  funext fun a => Fin.ext (by match a with | ⟨0, _⟩ => rfl | ⟨1, _⟩ => rfl | ⟨2, _⟩ => rfl)

theorem idx_unit (b : Fin 4096) (z z' : Fin 1) : idx_main_v57 (ix3 b z z') = ix2 b 0 :=
  funext fun a => Fin.ext (by match a with | ⟨0, _⟩ => rfl | ⟨1, _⟩ => rfl)

theorem idx_half0 (z : Fin 1) (p : Fin 64) :
    idx_main_v54 (ix2 z p) = ix2 0 ⟨p.val, by have := p.isLt; omega⟩ :=
  funext fun a => Fin.ext (by match a with | ⟨0, _⟩ => exact congrArg Fin.val (Subsingleton.elim z 0) | ⟨1, _⟩ => rfl)

theorem idx_half1 (z : Fin 1) (p : Fin 64) :
    idx_main_v55 (ix2 z p) = ix2 0 ⟨64 + p.val, by have := p.isLt; omega⟩ :=
  funext fun a => Fin.ext (by match a with | ⟨0, _⟩ => exact congrArg Fin.val (Subsingleton.elim z 0) | ⟨1, _⟩ => rfl)

section
variable (x0 x1 : (⟨S4096x128x1, .f32⟩ : BufTy).Contents (Elt Ideal)) (x2 : (⟨S64x1, .f32⟩ : BufTy).Contents (Elt Ideal))
  (x3 x4 : (⟨S64x64, .f32⟩ : BufTy).Contents (Elt Ideal)) (x5 : (⟨S64x1, .f32⟩ : BufTy).Contents (Elt Ideal))
  (x6 : (⟨S1x128, .f32⟩ : BufTy).Contents (Elt Ideal)) (x7 x8 : (⟨S64x64, .f32⟩ : BufTy).Contents (Elt Ideal))

/-- The node sum of the embedding. -/
theorem pool_sum (b : Fin 4096) (p : Fin 64) :
    val_main_v50 (F := Ideal) x0 x1 x2 x3 x4 x5 (ix2 b p) = Cert.Gnn.colsum (EMB x0 x1 x2 x3 x4 x5 b) p := by
  rw [val_main_v50_apply, val_main_cst_5_apply, Ideal.ofBits_def, Ideal.ofBits_zero_f32, zero_add]
  simp only [show ∀ k, idx_main_v50 (ix2 b p) k = ix3 b k p from idx_node b p, embed_rep x0 x1 x2 x3 x4 x5 b _ p]
  rfl

/-- The pooled head. -/
theorem pooled_eq (b : Fin 4096) (q : Fin 64) :
    val_main_v52 (F := Ideal) x0 x1 x2 x3 x4 x5 x7 (ix2 b q)
      = Cert.Gnn.pooled (fun a c => x7 (ix2 a c)) (EMB x0 x1 x2 x3 x4 x5 b) q := by
  rw [val_main_v52_apply, val_main_v51_apply, val_main_call5_v0_apply, val_main_call5_cst_apply,
    Ideal.maximumf_def, Ideal.ofBits_def, Ideal.ofBits_zero_f32]
  simp only [lidx_pool, ridx_pool, pool_sum]
  rfl

/-- The local head. -/
theorem loc_eq (b : Fin 4096) (k : Fin 128) (q : Fin 64) :
    val_main_v53 (F := Ideal) x0 x1 x2 x3 x4 x5 x8 (ix3 b k q)
      = Cert.Gnn.loc (fun a c => x8 (ix2 a c)) (EMB x0 x1 x2 x3 x4 x5 b) k q := by
  rw [val_main_v53_apply]
  simp only [show ∀ p, lidx_main_v53 (ix3 b k q) p = ix3 b k p from lidx_chan b k q,
    show ∀ p, ridx_main_v53 (ix3 b k q) p = ix2 q p from ridx_chan b k q, embed_rep x0 x1 x2 x3 x4 x5 b k _]
  rfl

/-- The last stage at batch element b and node k. -/
theorem ref_at (b : Fin 4096) (k : Fin 128) (z : Fin 1) :
    val_main_v60 (F := Ideal) x0 x1 x2 x3 x4 x5 x6 x7 x8 (ix3 b k z)
      = Cert.Gnn.ofArgs (n := 4096) x0 x1 x2 x3 x4 x5 x6 x7 x8 (ix3 b k z) := by
  rw [val_main_v60_apply, val_main_v59_apply, val_main_v57_apply, val_main_v56_apply, val_main_v58_apply, Ideal.addf_def,
    idx_spread, idx_unit]
  simp only [lidx_head, ridx_head, lidx_lochead, ridx_lochead, val_main_v54_apply, val_main_v55_apply, idx_half0, idx_half1,
    pooled_eq, loc_eq]
  rfl

end

/-- The reference's last stage, as a function of the nine arguments, is the specification over 4096 batch elements. -/
theorem ref_eq (x0 x1 : (⟨S4096x128x1, .f32⟩ : BufTy).Contents (Elt Ideal)) (x2 : (⟨S64x1, .f32⟩ : BufTy).Contents (Elt Ideal))
    (x3 x4 : (⟨S64x64, .f32⟩ : BufTy).Contents (Elt Ideal)) (x5 : (⟨S64x1, .f32⟩ : BufTy).Contents (Elt Ideal))
    (x6 : (⟨S1x128, .f32⟩ : BufTy).Contents (Elt Ideal)) (x7 x8 : (⟨S64x64, .f32⟩ : BufTy).Contents (Elt Ideal)) :
    val_main_v60 (F := Ideal) x0 x1 x2 x3 x4 x5 x6 x7 x8 = Cert.Gnn.ofArgs (n := 4096) x0 x1 x2 x3 x4 x5 x6 x7 x8 := by
  funext i
  rw [eq_ix3 i]
  exact ref_at x0 x1 x2 x3 x4 x5 x6 x7 x8 (i 0) (i 1) (i 2)

end Cert.ReferenceIdeal.RefValue

end
-- ==== Proof.lean ====
/-
  The certificate of a graph-network message-passing kernel against its jnp reference, over the extended reals.

  Both programs compute, for each of 4096 batch elements of 128 nodes with 64 channels, four rounds of
    mu' = max ((x W1 + (sum over nodes of mu - mu) W2^T) + (sum over nodes of tm - tm) W3^T) 0,   tm = max (w W4) 0,
  from mu = 0, and then the readout  max ((sum over nodes of mu) W6^T) 0 · W5a  +  (mu W7^T) · W5b  per node
  (Proof/Spec.lean).  The kernel does it 32 batch elements at a time on a grid of 128 points, with the square
  weights transposed beforehand and every matrix product on a flattened [4096, 64] block; the reference does it on
  whole arrays with contractions over the last axis.  At the ideal values these are the same sums of the same
  products in the same grouping: no law beyond reading each operation at an index is used, and the precondition
  (finite inputs) is never opened.

  The three frames are the generated ones (the reference's is its run with the result dropped); the idealization
  rewrote no operation, so that conjunct is trivial; the value conjunct sets the kernel's run (Proof/KernelValue.lean,
  over Proof/KernelBody.lean and Proof/KernelOps.lean) beside the reference's (Proof/RefValue.lean).
-/
import proofs.«179231_j29755533427211_1_alg».proof.Defs
import proofs.«179231_j29755533427211_1_alg».proof.Proof.Gen.Kernel
import proofs.«179231_j29755533427211_1_alg».proof.Proof.Gen.Kernel.Skeleton
import proofs.«179231_j29755533427211_1_alg».proof.Proof.Gen.Kernel.Launch
import proofs.«179231_j29755533427211_1_alg».proof.Proof.Gen.Kernel.Points
import proofs.«179231_j29755533427211_1_alg».proof.Proof.Gen.Kernel.Frame
import proofs.«179231_j29755533427211_1_alg».proof.Proof.Gen.KernelIdeal
import proofs.«179231_j29755533427211_1_alg».proof.Proof.Gen.KernelIdeal.Skeleton
import proofs.«179231_j29755533427211_1_alg».proof.Proof.Gen.KernelIdeal.Launch
import proofs.«179231_j29755533427211_1_alg».proof.Proof.Gen.KernelIdeal.Points
import proofs.«179231_j29755533427211_1_alg».proof.Proof.Gen.KernelIdeal.Frame
import proofs.«179231_j29755533427211_1_alg».proof.Proof.Gen.ReferenceIdeal
import proofs.«179231_j29755533427211_1_alg».proof.Proof.Gen.Pre_finite_inputs
import proofs.«179231_j29755533427211_1_alg».proof.Proof.Gen.KernelIdeal.Value
import proofs.«179231_j29755533427211_1_alg».proof.Proof.Gen.ReferenceIdeal.Run
import proofs.«179231_j29755533427211_1_alg».proof.Proof.Gen.ReferenceIdeal.Read
import proofs.«179231_j29755533427211_1_alg».proof.Proof.KernelValue
import proofs.«179231_j29755533427211_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the nine arguments both programs end with the specification's function of them. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v60_eq, Cert.ReferenceIdeal.RefValue.ref_eq, h0, h1, h2, h3, h4, h5, h6, h7, h8]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
